-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x64 : Shape := ⟨2, ![16384, 64]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_

variable [Facts]

def fn {F : FTy → Type} [FloatOps F] (main_arg0 : FVec F S16384x256 .f32) (main_arg1 : FVec F S16384x64 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  main_v8
-- ==== Kernel.lean ====
abbrev S16384x256 : Shape := ⟨2, ![16384, 256]⟩
abbrev S16384x64 : Shape := ⟨2, ![16384, 64]⟩
abbrev S64x256 : Shape := ⟨2, ![64, 256]⟩
abbrev S2048x64 : Shape := ⟨2, ![2048, 64]⟩
abbrev S2048x256 : Shape := ⟨2, ![2048, 256]⟩
abbrev S1x64 : Shape := ⟨2, ![1, 64]⟩
abbrev S64 : Shape := ⟨1, ![64]⟩
abbrev S64x1 : Shape := ⟨2, ![64, 1]⟩
abbrev S64x16384 : Shape := ⟨2, ![64, 16384]⟩
abbrev S64x2048 : Shape := ⟨2, ![64, 2048]⟩
abbrev S1x256 : Shape := ⟨2, ![1, 256]⟩
abbrev S256 : Shape := ⟨1, ![256]⟩
abbrev S2048 : Shape := ⟨1, ![2048]⟩
abbrev S1x2048 : Shape := ⟨2, ![1, 2048]⟩

abbrev nBuf : Space → Nat
  | .hbm => 5
  | .vmem => 12
  | .smem => 0
  | _ => 0

abbrev bufTy : (tb : Table) → Fin (tcTables nBuf tb) → BufTy
  | .hbm, ⟨0, _⟩ => ⟨S16384x256, .f32⟩
  | .hbm, ⟨1, _⟩ => ⟨S16384x64, .f32⟩
  | .hbm, ⟨2, _⟩ => ⟨S64x256, .f32⟩
  | .hbm, ⟨3, _⟩ => ⟨S64x16384, .f32⟩
  | .hbm, ⟨4, _⟩ => ⟨S16384x64, .f32⟩
  | .local _ .vmem, ⟨0, _⟩ => ⟨S2048x64, .f32⟩
  | .local _ .vmem, ⟨1, _⟩ => ⟨S2048x64, .f32⟩
  | .local _ .vmem, ⟨2, _⟩ => ⟨S2048x256, .f32⟩
  | .local _ .vmem, ⟨3, _⟩ => ⟨S2048x256, .f32⟩
  | .local _ .vmem, ⟨4, _⟩ => ⟨S64x256, .f32⟩
  | .local _ .vmem, ⟨5, _⟩ => ⟨S64x256, .f32⟩
  | .local _ .vmem, ⟨6, _⟩ => ⟨S1x64, .f32⟩
  | .local _ .vmem, ⟨7, _⟩ => ⟨S2048x256, .f32⟩
  | .local _ .vmem, ⟨8, _⟩ => ⟨S2048x256, .f32⟩
  | .local _ .vmem, ⟨9, _⟩ => ⟨S64x256, .f32⟩
  | .local _ .vmem, ⟨10, _⟩ => ⟨S64x2048, .f32⟩
  | .local _ .vmem, ⟨11, _⟩ => ⟨S64x2048, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v18 : BitVec 1 := Scalar.cmpi .eq arg0 c7_i32
  let v19 : BitVec 32 := Scalar.extui v18
  let c0_i32_13 : BitVec 32 := 0#32
  let v20 : BitVec 1 := Scalar.cmpi .ne v19 c0_i32_13
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S64x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S2048x64_S2048x64_0_0 : ∀ a, (![0, 0] : Fin 2 → Nat) a + S2048x64.size a ≤ S2048x64.size a
  h_S2048x64 : 0 < S2048x64.numel
  inb_S2048x256_S2048x256_0_0 : ∀ a, (![0, 0] : Fin 2 → Nat) a + S2048x256.size a ≤ S2048x256.size a
  h_S2048x256 : 0 < S2048x256.numel
  reduces_S2048x64_S64 : S2048x64.Reduces [0] S64
  shapeCasts_S64_S1x64 : S64.ShapeCasts S1x64
  transposes_S1x64_p1_0_S64x1 : S1x64.Transposes [1, 0] S64x1
  broadcasts_S64x1_S64x256 : S64x1.Broadcasts S64x256
  inb_S64x256_S1x256_0_0 : ∀ a, (![0, 0] : Fin 2 → Nat) a + S1x256.size a ≤ S64x256.size a
  h_S1x256 : 0 < S1x256.numel
  shapeCasts_S1x256_S256 : S1x256.ShapeCasts S256
  shapeCasts_S256_S1x256 : S256.ShapeCasts S1x256
  broadcasts_S1x256_S2048x256 : S1x256.Broadcasts S2048x256
  reduces_S2048x256_S2048 : S2048x256.Reduces [1] S2048
  inb_S64x2048_S1x2048_0_0 : ∀ a, (![0, 0] : Fin 2 → Nat) a + S1x2048.size a ≤ S64x2048.size a
  h_S1x2048 : 0 < S1x2048.numel
  shapeCasts_S1x2048_S2048 : S1x2048.ShapeCasts S2048
  shapeCasts_S2048_S1x2048 : S2048.ShapeCasts S1x2048
  inb_S64x256_S1x256_1_0 : ∀ a, (![1, 0] : Fin 2 → Nat) a + S1x256.size a ≤ S64x256.size a
  inb_S64x2048_S1x2048_1_0 : ∀ a, (![1, 0] : Fin 2 → Nat) a + S1x2048.size a ≤ S64x2048.size a
  inb_S64x256_S1x256_2_0 : ∀ a, (![2, 0] : Fin 2 → Nat) a + S1x256.size a ≤ S64x256.size a
  inb_S64x2048_S1x2048_2_0 : ∀ a, (![2, 0] : Fin 2 → Nat) a + S1x2048.size a ≤ S64x2048.size a
  inb_S64x256_S1x256_3_0 : ∀ a, (![3, 0] : Fin 2 → Nat) a + S1x256.size a ≤ S64x256.size a
  inb_S64x2048_S1x2048_3_0 : ∀ a, (![3, 0] : Fin 2 → Nat) a + S1x2048.size a ≤ S64x2048.size a
  inb_S64x256_S1x256_4_0 : ∀ a, (![4, 0] : Fin 2 → Nat) a + S1x256.size a ≤ S64x256.size a
  inb_S64x2048_S1x2048_4_0 : ∀ a, (![4, 0] : Fin 2 → Nat) a + S1x2048.size a ≤ S64x2048.size a
  inb_S64x256_S1x256_5_0 : ∀ a, (![5, 0] : Fin 2 → Nat) a + S1x256.size a ≤ S64x256.size a
  inb_S64x2048_S1x2048_5_0 : ∀ a, (![5, 0] : Fin 2 → Nat) a + S1x2048.size a ≤ S64x2048.size a
  inb_S64x256_S1x256_6_0 : ∀ a, (![6, 0] : Fin 2 → Nat) a + S1x256.size a ≤ S64x256.size a
  inb_S64x2048_S1x2048_6_0 : ∀ a, (![6, 0] : Fin 2 → Nat) a + S1x2048.size a ≤ S64x2048.size a
  inb_S64x256_S1x256_7_0 : ∀ a, (![7, 0] : Fin 2 → Nat) a + S1x256.size a ≤ S64x256.size a
  inb_S64x2048_S1x2048_7_0 : ∀ a, (![7, 0] : Fin 2 → Nat) a + S1x2048.size a ≤ S64x2048.size a
  inb_S64x256_S1x256_8_0 : ∀ a, (![8, 0] : Fin 2 → Nat) a + S1x256.size a ≤ S64x256.size a
  inb_S64x2048_S1x2048_8_0 : ∀ a, (![8, 0] : Fin 2 → Nat) a + S1x2048.size a ≤ S64x2048.size a
  inb_S64x256_S1x256_9_0 : ∀ a, (![9, 0] : Fin 2 → Nat) a + S1x256.size a ≤ S64x256.size a
  inb_S64x2048_S1x2048_9_0 : ∀ a, (![9, 0] : Fin 2 → Nat) a + S1x2048.size a ≤ S64x2048.size a
  inb_S64x256_S1x256_10_0 : ∀ a, (![10, 0] : Fin 2 → Nat) a + S1x256.size a ≤ S64x256.size a
  inb_S64x2048_S1x2048_10_0 : ∀ a, (![10, 0] : Fin 2 → Nat) a + S1x2048.size a ≤ S64x2048.size a
  inb_S64x256_S1x256_11_0 : ∀ a, (![11, 0] : Fin 2 → Nat) a + S1x256.size a ≤ S64x256.size a
  inb_S64x2048_S1x2048_11_0 : ∀ a, (![11, 0] : Fin 2 → Nat) a + S1x2048.size a ≤ S64x2048.size a
  inb_S64x256_S1x256_12_0 : ∀ a, (![12, 0] : Fin 2 → Nat) a + S1x256.size a ≤ S64x256.size a
  inb_S64x2048_S1x2048_12_0 : ∀ a, (![12, 0] : Fin 2 → Nat) a + S1x2048.size a ≤ S64x2048.size a
  inb_S64x256_S1x256_13_0 : ∀ a, (![13, 0] : Fin 2 → Nat) a + S1x256.size a ≤ S64x256.size a
  inb_S64x2048_S1x2048_13_0 : ∀ a, (![13, 0] : Fin 2 → Nat) a + S1x2048.size a ≤ S64x2048.size a
  inb_S64x256_S1x256_14_0 : ∀ a, (![14, 0] : Fin 2 → Nat) a + S1x256.size a ≤ S64x256.size a
  inb_S64x2048_S1x2048_14_0 : ∀ a, (![14, 0] : Fin 2 → Nat) a + S1x2048.size a ≤ S64x2048.size a
  inb_S64x256_S1x256_15_0 : ∀ a, (![15, 0] : Fin 2 → Nat) a + S1x256.size a ≤ S64x256.size a
  inb_S64x2048_S1x2048_15_0 : ∀ a, (![15, 0] : Fin 2 → Nat) a + S1x2048.size a ≤ S64x2048.size a
  inb_S64x256_S1x256_16_0 : ∀ a, (![16, 0] : Fin 2 → Nat) a + S1x256.size a ≤ S64x256.size a
  inb_S64x2048_S1x2048_16_0 : ∀ a, (![16, 0] : Fin 2 → Nat) a + S1x2048.size a ≤ S64x2048.size a
  inb_S64x256_S1x256_17_0 : ∀ a, (![17, 0] : Fin 2 → Nat) a + S1x256.size a ≤ S64x256.size a
  inb_S64x2048_S1x2048_17_0 : ∀ a, (![17, 0] : Fin 2 → Nat) a + S1x2048.size a ≤ S64x2048.size a
  inb_S64x256_S1x256_18_0 : ∀ a, (![18, 0] : Fin 2 → Nat) a + S1x256.size a ≤ S64x256.size a
  inb_S64x2048_S1x2048_18_0 : ∀ a, (![18, 0] : Fin 2 → Nat) a + S1x2048.size a ≤ S64x2048.size a
  inb_S64x256_S1x256_19_0 : ∀ a, (![19, 0] : Fin 2 → Nat) a + S1x256.size a ≤ S64x256.size a
  inb_S64x2048_S1x2048_19_0 : ∀ a, (![19, 0] : Fin 2 → Nat) a + S1x2048.size a ≤ S64x2048.size a
  inb_S64x256_S1x256_20_0 : ∀ a, (![20, 0] : Fin 2 → Nat) a + S1x256.size a ≤ S64x256.size a
  inb_S64x2048_S1x2048_20_0 : ∀ a, (![20, 0] : Fin 2 → Nat) a + S1x2048.size a ≤ S64x2048.size a
  inb_S64x256_S1x256_21_0 : ∀ a, (![21, 0] : Fin 2 → Nat) a + S1x256.size a ≤ S64x256.size a
  inb_S64x2048_S1x2048_21_0 : ∀ a, (![21, 0] : Fin 2 → Nat) a + S1x2048.size a ≤ S64x2048.size a
  inb_S64x256_S1x256_22_0 : ∀ a, (![22, 0] : Fin 2 → Nat) a + S1x256.size a ≤ S64x256.size a
  inb_S64x2048_S1x2048_22_0 : ∀ a, (![22, 0] : Fin 2 → Nat) a + S1x2048.size a ≤ S64x2048.size a
  inb_S64x256_S1x256_23_0 : ∀ a, (![23, 0] : Fin 2 → Nat) a + S1x256.size a ≤ S64x256.size a
  inb_S64x2048_S1x2048_23_0 : ∀ a, (![23, 0] : Fin 2 → Nat) a + S1x2048.size a ≤ S64x2048.size a
  inb_S64x256_S1x256_24_0 : ∀ a, (![24, 0] : Fin 2 → Nat) a + S1x256.size a ≤ S64x256.size a
  inb_S64x2048_S1x2048_24_0 : ∀ a, (![24, 0] : Fin 2 → Nat) a + S1x2048.size a ≤ S64x2048.size a
  inb_S64x256_S1x256_25_0 : ∀ a, (![25, 0] : Fin 2 → Nat) a + S1x256.size a ≤ S64x256.size a
  inb_S64x2048_S1x2048_25_0 : ∀ a, (![25, 0] : Fin 2 → Nat) a + S1x2048.size a ≤ S64x2048.size a
  inb_S64x256_S1x256_26_0 : ∀ a, (![26, 0] : Fin 2 → Nat) a + S1x256.size a ≤ S64x256.size a
  inb_S64x2048_S1x2048_26_0 : ∀ a, (![26, 0] : Fin 2 → Nat) a + S1x2048.size a ≤ S64x2048.size a
  inb_S64x256_S1x256_27_0 : ∀ a, (![27, 0] : Fin 2 → Nat) a + S1x256.size a ≤ S64x256.size a
  inb_S64x2048_S1x2048_27_0 : ∀ a, (![27, 0] : Fin 2 → Nat) a + S1x2048.size a ≤ S64x2048.size a
  inb_S64x256_S1x256_28_0 : ∀ a, (![28, 0] : Fin 2 → Nat) a + S1x256.size a ≤ S64x256.size a
  inb_S64x2048_S1x2048_28_0 : ∀ a, (![28, 0] : Fin 2 → Nat) a + S1x2048.size a ≤ S64x2048.size a
  inb_S64x256_S1x256_29_0 : ∀ a, (![29, 0] : Fin 2 → Nat) a + S1x256.size a ≤ S64x256.size a
  inb_S64x2048_S1x2048_29_0 : ∀ a, (![29, 0] : Fin 2 → Nat) a + S1x2048.size a ≤ S64x2048.size a
  inb_S64x256_S1x256_30_0 : ∀ a, (![30, 0] : Fin 2 → Nat) a + S1x256.size a ≤ S64x256.size a
  inb_S64x2048_S1x2048_30_0 : ∀ a, (![30, 0] : Fin 2 → Nat) a + S1x2048.size a ≤ S64x2048.size a
  inb_S64x256_S1x256_31_0 : ∀ a, (![31, 0] : Fin 2 → Nat) a + S1x256.size a ≤ S64x256.size a
  inb_S64x2048_S1x2048_31_0 : ∀ a, (![31, 0] : Fin 2 → Nat) a + S1x2048.size a ≤ S64x2048.size a
  inb_S64x256_S1x256_32_0 : ∀ a, (![32, 0] : Fin 2 → Nat) a + S1x256.size a ≤ S64x256.size a
  inb_S64x2048_S1x2048_32_0 : ∀ a, (![32, 0] : Fin 2 → Nat) a + S1x2048.size a ≤ S64x2048.size a
  inb_S64x256_S1x256_33_0 : ∀ a, (![33, 0] : Fin 2 → Nat) a + S1x256.size a ≤ S64x256.size a
  inb_S64x2048_S1x2048_33_0 : ∀ a, (![33, 0] : Fin 2 → Nat) a + S1x2048.size a ≤ S64x2048.size a
  inb_S64x256_S1x256_34_0 : ∀ a, (![34, 0] : Fin 2 → Nat) a + S1x256.size a ≤ S64x256.size a
  inb_S64x2048_S1x2048_34_0 : ∀ a, (![34, 0] : Fin 2 → Nat) a + S1x2048.size a ≤ S64x2048.size a
  inb_S64x256_S1x256_35_0 : ∀ a, (![35, 0] : Fin 2 → Nat) a + S1x256.size a ≤ S64x256.size a
  inb_S64x2048_S1x2048_35_0 : ∀ a, (![35, 0] : Fin 2 → Nat) a + S1x2048.size a ≤ S64x2048.size a
  inb_S64x256_S1x256_36_0 : ∀ a, (![36, 0] : Fin 2 → Nat) a + S1x256.size a ≤ S64x256.size a
  inb_S64x2048_S1x2048_36_0 : ∀ a, (![36, 0] : Fin 2 → Nat) a + S1x2048.size a ≤ S64x2048.size a
  inb_S64x256_S1x256_37_0 : ∀ a, (![37, 0] : Fin 2 → Nat) a + S1x256.size a ≤ S64x256.size a
  inb_S64x2048_S1x2048_37_0 : ∀ a, (![37, 0] : Fin 2 → Nat) a + S1x2048.size a ≤ S64x2048.size a
  inb_S64x256_S1x256_38_0 : ∀ a, (![38, 0] : Fin 2 → Nat) a + S1x256.size a ≤ S64x256.size a
  inb_S64x2048_S1x2048_38_0 : ∀ a, (![38, 0] : Fin 2 → Nat) a + S1x2048.size a ≤ S64x2048.size a
  inb_S64x256_S1x256_39_0 : ∀ a, (![39, 0] : Fin 2 → Nat) a + S1x256.size a ≤ S64x256.size a
  inb_S64x2048_S1x2048_39_0 : ∀ a, (![39, 0] : Fin 2 → Nat) a + S1x2048.size a ≤ S64x2048.size a
  inb_S64x256_S1x256_40_0 : ∀ a, (![40, 0] : Fin 2 → Nat) a + S1x256.size a ≤ S64x256.size a
  inb_S64x2048_S1x2048_40_0 : ∀ a, (![40, 0] : Fin 2 → Nat) a + S1x2048.size a ≤ S64x2048.size a
  inb_S64x256_S1x256_41_0 : ∀ a, (![41, 0] : Fin 2 → Nat) a + S1x256.size a ≤ S64x256.size a
  inb_S64x2048_S1x2048_41_0 : ∀ a, (![41, 0] : Fin 2 → Nat) a + S1x2048.size a ≤ S64x2048.size a
  inb_S64x256_S1x256_42_0 : ∀ a, (![42, 0] : Fin 2 → Nat) a + S1x256.size a ≤ S64x256.size a
  inb_S64x2048_S1x2048_42_0 : ∀ a, (![42, 0] : Fin 2 → Nat) a + S1x2048.size a ≤ S64x2048.size a
  inb_S64x256_S1x256_43_0 : ∀ a, (![43, 0] : Fin 2 → Nat) a + S1x256.size a ≤ S64x256.size a
  inb_S64x2048_S1x2048_43_0 : ∀ a, (![43, 0] : Fin 2 → Nat) a + S1x2048.size a ≤ S64x2048.size a
  inb_S64x256_S1x256_44_0 : ∀ a, (![44, 0] : Fin 2 → Nat) a + S1x256.size a ≤ S64x256.size a
  inb_S64x2048_S1x2048_44_0 : ∀ a, (![44, 0] : Fin 2 → Nat) a + S1x2048.size a ≤ S64x2048.size a
  inb_S64x256_S1x256_45_0 : ∀ a, (![45, 0] : Fin 2 → Nat) a + S1x256.size a ≤ S64x256.size a
  inb_S64x2048_S1x2048_45_0 : ∀ a, (![45, 0] : Fin 2 → Nat) a + S1x2048.size a ≤ S64x2048.size a
  inb_S64x256_S1x256_46_0 : ∀ a, (![46, 0] : Fin 2 → Nat) a + S1x256.size a ≤ S64x256.size a
  inb_S64x2048_S1x2048_46_0 : ∀ a, (![46, 0] : Fin 2 → Nat) a + S1x2048.size a ≤ S64x2048.size a
  inb_S64x256_S1x256_47_0 : ∀ a, (![47, 0] : Fin 2 → Nat) a + S1x256.size a ≤ S64x256.size a
  inb_S64x2048_S1x2048_47_0 : ∀ a, (![47, 0] : Fin 2 → Nat) a + S1x2048.size a ≤ S64x2048.size a
  inb_S64x256_S1x256_48_0 : ∀ a, (![48, 0] : Fin 2 → Nat) a + S1x256.size a ≤ S64x256.size a
  inb_S64x2048_S1x2048_48_0 : ∀ a, (![48, 0] : Fin 2 → Nat) a + S1x2048.size a ≤ S64x2048.size a
  inb_S64x256_S1x256_49_0 : ∀ a, (![49, 0] : Fin 2 → Nat) a + S1x256.size a ≤ S64x256.size a
  inb_S64x2048_S1x2048_49_0 : ∀ a, (![49, 0] : Fin 2 → Nat) a + S1x2048.size a ≤ S64x2048.size a
  inb_S64x256_S1x256_50_0 : ∀ a, (![50, 0] : Fin 2 → Nat) a + S1x256.size a ≤ S64x256.size a
  inb_S64x2048_S1x2048_50_0 : ∀ a, (![50, 0] : Fin 2 → Nat) a + S1x2048.size a ≤ S64x2048.size a
  inb_S64x256_S1x256_51_0 : ∀ a, (![51, 0] : Fin 2 → Nat) a + S1x256.size a ≤ S64x256.size a
  inb_S64x2048_S1x2048_51_0 : ∀ a, (![51, 0] : Fin 2 → Nat) a + S1x2048.size a ≤ S64x2048.size a
  inb_S64x256_S1x256_52_0 : ∀ a, (![52, 0] : Fin 2 → Nat) a + S1x256.size a ≤ S64x256.size a
  inb_S64x2048_S1x2048_52_0 : ∀ a, (![52, 0] : Fin 2 → Nat) a + S1x2048.size a ≤ S64x2048.size a
  inb_S64x256_S1x256_53_0 : ∀ a, (![53, 0] : Fin 2 → Nat) a + S1x256.size a ≤ S64x256.size a
  inb_S64x2048_S1x2048_53_0 : ∀ a, (![53, 0] : Fin 2 → Nat) a + S1x2048.size a ≤ S64x2048.size a
  inb_S64x256_S1x256_54_0 : ∀ a, (![54, 0] : Fin 2 → Nat) a + S1x256.size a ≤ S64x256.size a
  inb_S64x2048_S1x2048_54_0 : ∀ a, (![54, 0] : Fin 2 → Nat) a + S1x2048.size a ≤ S64x2048.size a
  inb_S64x256_S1x256_55_0 : ∀ a, (![55, 0] : Fin 2 → Nat) a + S1x256.size a ≤ S64x256.size a
  inb_S64x2048_S1x2048_55_0 : ∀ a, (![55, 0] : Fin 2 → Nat) a + S1x2048.size a ≤ S64x2048.size a
  inb_S64x256_S1x256_56_0 : ∀ a, (![56, 0] : Fin 2 → Nat) a + S1x256.size a ≤ S64x256.size a
  inb_S64x2048_S1x2048_56_0 : ∀ a, (![56, 0] : Fin 2 → Nat) a + S1x2048.size a ≤ S64x2048.size a
  inb_S64x256_S1x256_57_0 : ∀ a, (![57, 0] : Fin 2 → Nat) a + S1x256.size a ≤ S64x256.size a
  inb_S64x2048_S1x2048_57_0 : ∀ a, (![57, 0] : Fin 2 → Nat) a + S1x2048.size a ≤ S64x2048.size a
  inb_S64x256_S1x256_58_0 : ∀ a, (![58, 0] : Fin 2 → Nat) a + S1x256.size a ≤ S64x256.size a
  inb_S64x2048_S1x2048_58_0 : ∀ a, (![58, 0] : Fin 2 → Nat) a + S1x2048.size a ≤ S64x2048.size a
  inb_S64x256_S1x256_59_0 : ∀ a, (![59, 0] : Fin 2 → Nat) a + S1x256.size a ≤ S64x256.size a
  inb_S64x2048_S1x2048_59_0 : ∀ a, (![59, 0] : Fin 2 → Nat) a + S1x2048.size a ≤ S64x2048.size a
  inb_S64x256_S1x256_60_0 : ∀ a, (![60, 0] : Fin 2 → Nat) a + S1x256.size a ≤ S64x256.size a
  inb_S64x2048_S1x2048_60_0 : ∀ a, (![60, 0] : Fin 2 → Nat) a + S1x2048.size a ≤ S64x2048.size a
  inb_S64x256_S1x256_61_0 : ∀ a, (![61, 0] : Fin 2 → Nat) a + S1x256.size a ≤ S64x256.size a
  inb_S64x2048_S1x2048_61_0 : ∀ a, (![61, 0] : Fin 2 → Nat) a + S1x2048.size a ≤ S64x2048.size a
  inb_S64x256_S1x256_62_0 : ∀ a, (![62, 0] : Fin 2 → Nat) a + S1x256.size a ≤ S64x256.size a
  inb_S64x2048_S1x2048_62_0 : ∀ a, (![62, 0] : Fin 2 → Nat) a + S1x2048.size a ≤ S64x2048.size a
  inb_S64x256_S1x256_63_0 : ∀ a, (![63, 0] : Fin 2 → Nat) a + S1x256.size a ≤ S64x256.size a
  inb_S64x2048_S1x2048_63_0 : ∀ a, (![63, 0] : Fin 2 → Nat) a + S1x2048.size a ≤ S64x2048.size a
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  reduces_S64x2048_S2048 : S64x2048.Reduces [0] S2048
  broadcasts_S1x2048_S64x2048 : S1x2048.Broadcasts S64x2048
  transposes_S64x16384_S16384x64_1_0 : S64x16384.Transposes [1, 0] S16384x64
  dot_S2048x64_S2048x256_S64x256_0_0_1_1_n_n_wf : DotDims.WF S2048x64 S2048x256 S64x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .f32 = 32 ∨ (Rect.block (s := S16384x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S16384x256.size a
  hwx0_1 : ∀ i : grid0.Coords, EltTy.bits .f32 = 32 ∨ (Rect.block (s := S16384x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S16384x256.size a
  hwx1_0 : ∀ i : grid1.Coords, EltTy.bits .f32 = 32 ∨ (Rect.block (s := S16384x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x256.size a ≤ S64x256.size a
  hwx1_1 : ∀ i : grid1.Coords, EltTy.bits .f32 = 32 ∨ (Rect.block (s := S64x256) S64x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x2048.size a ≤ S64x16384.size a
  hwx1_2 : ∀ i : grid1.Coords, EltTy.bits .f32 = 32 ∨ (Rect.block (s := S64x16384) S64x2048.size (cc1_transform_2 i) (hinb1_2 i)).WholeWords (EltTy.packing .f32)

variable [Facts₀]

def dot_S2048x64_S2048x256_S64x256_0_0_1_1_n_n : DotDims S2048x64 S2048x256 S64x256 where
  lhsContracting := [0]
  rhsContracting := [0]
  lhsNonContracting := [1]
  rhsNonContracting := [1]
  lhsBatch := []
  rhsBatch := []
  wf := dot_S2048x64_S2048x256_S64x256_0_0_1_1_n_n_wf

abbrev win0_0 : Pipeline.Window sig grid0 :=
  Pipeline.Window.ofSpec (Memref.whole main_arg1) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x256.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S64x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S64x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x256 : Shape := ⟨2, ![16384, 256]⟩
abbrev S16384x64 : Shape := ⟨2, ![16384, 64]⟩
abbrev S_ : Shape := ⟨0, ![]⟩
abbrev S64 : Shape := ⟨1, ![64]⟩
abbrev S64x1 : Shape := ⟨2, ![64, 1]⟩
abbrev S64x16384 : Shape := ⟨2, ![64, 16384]⟩
abbrev S64x256 : Shape := ⟨2, ![64, 256]⟩
abbrev S16384x1x256 : Shape := ⟨3, ![16384, 1, 256]⟩
abbrev S1x64x256 : Shape := ⟨3, ![1, 64, 256]⟩
abbrev S16384x64x256 : Shape := ⟨3, ![16384, 64, 256]⟩
abbrev S16384 : Shape := ⟨1, ![16384]⟩
abbrev S16384x1 : Shape := ⟨2, ![16384, 1]⟩

abbrev nBuf : Space → Nat
  | .hbm => 29
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x64, .f32⟩
  | .hbm, ⟨2, _⟩ => ⟨S_, .f32⟩
  | .hbm, ⟨3, _⟩ => ⟨S64, .f32⟩
  | .hbm, ⟨4, _⟩ => ⟨S64x1, .f32⟩
  | .hbm, ⟨5, _⟩ => ⟨S64x16384, .f32⟩
  | .hbm, ⟨6, _⟩ => ⟨S64x256, .f32⟩
  | .hbm, ⟨7, _⟩ => ⟨S64x256, .f32⟩
  | .hbm, ⟨8, _⟩ => ⟨S64x256, .f32⟩
  | .hbm, ⟨9, _⟩ => ⟨S16384x1x256, .f32⟩
  | .hbm, ⟨10, _⟩ => ⟨S1x64x256, .f32⟩
  | .hbm, ⟨11, _⟩ => ⟨S16384x64x256, .f32⟩
  | .hbm, ⟨12, _⟩ => ⟨S16384x64x256, .f32⟩
  | .hbm, ⟨13, _⟩ => ⟨S16384x64x256, .f32⟩
  | .hbm, ⟨14, _⟩ => ⟨S16384x64x256, .f32⟩
  | .hbm, ⟨15, _⟩ => ⟨S16384x64x256, .f32⟩
  | .hbm, ⟨16, _⟩ => ⟨S_, .f32⟩
  | .hbm, ⟨17, _⟩ => ⟨S16384x64, .f32⟩
  | .hbm, ⟨18, _⟩ => ⟨S_, .f32⟩
  | .hbm, ⟨19, _⟩ => ⟨S16384x64, .f32⟩
  | .hbm, ⟨20, _⟩ => ⟨S16384x64, .f32⟩
  | .hbm, ⟨21, _⟩ => ⟨S_, .f32⟩
  | .hbm, ⟨22, _⟩ => ⟨S16384x64, .f32⟩
  | .hbm, ⟨23, _⟩ => ⟨S16384x64, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S16384x64, .f32⟩
  | .hbm, ⟨28, _⟩ => ⟨S16384x64, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  reducesTo_S16384x64_S64_d0 : S16384x64.ReducesTo [0] S64
  h_S_ : 0 < S_.numel
  bcast_S64_S64x1_0 : S64.BroadcastsInDim S64x1 (![0] : Fin 1 → Fin S64x1.rank)
  transposes_S16384x64_S64x16384_1_0 : S16384x64.Transposes [1, 0] S64x16384
  bcast_S64x1_S64x256_0_1 : S64x1.BroadcastsInDim S64x256 (![0, 1] : Fin 2 → Fin S64x256.rank)
  bcast_S16384x256_S16384x1x256_0_2 : S16384x256.BroadcastsInDim S16384x1x256 (![0, 2] : Fin 2 → Fin S16384x1x256.rank)
  bcast_S64x256_S1x64x256_1_2 : S64x256.BroadcastsInDim S1x64x256 (![1, 2] : Fin 2 → Fin S1x64x256.rank)
  bcast_S16384x1x256_S16384x64x256_0_1_2 : S16384x1x256.BroadcastsInDim S16384x64x256 (![0, 1, 2] : Fin 3 → Fin S16384x64x256.rank)
  bcast_S1x64x256_S16384x64x256_0_1_2 : S1x64x256.BroadcastsInDim S16384x64x256 (![0, 1, 2] : Fin 3 → Fin S16384x64x256.rank)
  reducesTo_S16384x64x256_S16384x64_d2 : S16384x64x256.ReducesTo [2] S16384x64
  bcast_S_S16384x64 : S_.BroadcastsInDim S16384x64 (![] : Fin 0 → Fin S16384x64.rank)
  reducesTo_S16384x64_S16384_d1 : S16384x64.ReducesTo [1] S16384
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  dot_S64x16384_S16384x256_S64x256_1_0_0_1_n_n_wf : DotDims.WF S64x16384 S16384x256 S64x256 [1] [0] [0] [1] [] []

variable [Facts₀]

def dot_S64x16384_S16384x256_S64x256_1_0_0_1_n_n : DotDims S64x16384 S16384x256 S64x256 where
  lhsContracting := [1]
  rhsContracting := [0]
  lhsNonContracting := [0]
  rhsNonContracting := [1]
  lhsBatch := []
  rhsBatch := []
  wf := dot_S64x16384_S16384x256_S64x256_1_0_0_1_n_n_wf

class Facts : Prop extends Facts₀ where

variable [Facts]
-- ==== Proof.LibWholeStore.lean ====
import Idealize.ShloMosaic.Lib.Pipeline.FrameBody
import Idealize.ShloMosaic.Lib.Pipeline.Value

/-! A store through the rectangle that is the whole of a buffer's shape replaces the buffer's contents: what is read
back afterwards is the stored value, whatever the buffer held and whatever was stored before. -/

noncomputable section

namespace Idealize.ShloMosaic.WholeStore

open Idealize.ShloMosaic

variable {sig : RefSig} {κ : Kind} {sp : Space} {S : Shape} {e : EltTy} {Val : EltTy → Type} [∀ e, Nonempty (Val e)]

/-- The rectangle at offset zero of the shape's own size holds every index. -/
theorem mem_unit_zero {off : Fin S.rank → Nat} (h : off = fun _ => 0) (inb : ∀ a, off a + S.size a ≤ S.size a) (y : S.Idx) :
    y ∈ (Rect.unit off S.size inb).set := by
  subst h
  show y ∈ (Rect.whole S).set
  rw [Rect.set_whole]; exact Finset.mem_univ y

/-- After a last store of `w` through the whole shape, the buffer reads `w`. -/
theorem read_writes_cons (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, mem_unit_zero h inb y⟩), View.canon_cons_unit_zero h inb w L]

/-- A load through the whole shape after a last store of `w` through it reads `w`. -/
theorem readCov_cons (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, mem_unit_zero h inb y⟩), View.canon_cons_unit_zero h inb w L,
    View.ld_unit_zero h inb]

/-- A load through the whole shape of a buffer whose contents read `X` reads `X`. -/
theorem readAt_whole (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h inb]

end Idealize.ShloMosaic.WholeStore

end
-- ==== Proof.KCentroidBody.lean ====
import proofs.«175471_j7017976562073_1_alg».proof.Proof.Gen.Kernel.Launch
import proofs.«175471_j7017976562073_1_alg».proof.Proof.Gen.Kernel.Skeleton
import proofs.«175471_j7017976562073_1_alg».proof.Proof.Gen.Kernel.Points
import proofs.«175471_j7017976562073_1_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Centroid

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.WholeStore

/-! # The centroid kernel's body, point by point

The body keeps two accumulators between grid points: `acc` (64 x 256, the weighted sums) and `cnt` (1 x 64, the weights'
totals). At the first point it zeroes both and then adds this block's contribution; at every later point it adds; at the
last point it also writes `acc / cnt` (the centroids) to its output block. Every store and load goes through the whole of
its buffer, so what a buffer reads after the body is the last value stored into it. -/

/-- The first grid point: the accumulators are reset before they are added to. -/
abbrev isFirst (i : grid0.Coords) : Prop := (Scalar.cmpi .ne (Scalar.extui (Scalar.cmpi .eq (BitVec.ofNat 32 (i 0).val) 0#32)) 0#32) = 1#1
/-- The last grid point: the centroids are written out. -/
abbrev isLast (i : grid0.Coords) : Prop := k0_cond2 i = 1#1

/-- A rank-2 offset at the origin. -/
theorem origin2 : (![0, 0] : Fin 2 → ℕ) = fun _ => 0 := by funext a; fin_cases a <;> rfl

/-- The accumulator after a point that found it at `a`: `a` plus the block's weighted sums. -/
abbrev accStep (mb : Vec F S2048x64 .f32) (xb : Vec F S2048x256 .f32) (a : Vec F S64x256 .f32) : Vec F S64x256 .f32 := k0_pay3 mb xb a
/-- The weight totals after a point that found them at `n`: `n` plus the block's column sums. -/
abbrev cntStep (mb : Vec F S2048x64 .f32) (n : Vec F S1x64 .f32) : Vec F S1x64 .f32 := k0_pay4 mb n
/-- The centroids: the accumulator divided, row by row, by the weight totals. -/
abbrev centroids (n : Vec F S1x64 .f32) (a : Vec F S64x256 .f32) : Vec F S64x256 .f32 := k0_pay5 n a

set_option maxHeartbeats 2000000 in
/-- At the first point: from any scratch contents, the accumulators end at one step from zero; the output block is untouched. -/
theorem run_first (c : Dev nD) (i : grid0.Coords)
    (arg1 : Memref sig .tc .vmem S2048x64 .f32) (harg1 : arg1.IsWhole) (arg2 : Memref sig .tc .vmem S2048x256 .f32) (harg2 : arg2.IsWhole)
    (arg3 : Memref sig .tc .vmem S64x256 .f32) (harg3 : arg3.IsWhole) (arg4 : Memref sig .tc .vmem S64x256 .f32) (harg4 : arg4.IsWhole)
    (arg5 : Memref sig .tc .vmem S1x64 .f32) (harg5 : arg5.IsWhole) (hf : isFirst i) (hl : ¬isLast i)
    (mb : Vec F S2048x64 .f32) (xb : Vec F S2048x256 .f32) (o : Vec F S64x256 .f32) (E : Set ℕ) (K : PUnit → sProp 𝕄) :
    iprop(owns (c : Thread nD τ) arg1 fullShare mb ∗ owns (c : Thread nD τ) arg2 fullShare xb ∗ owns (c : Thread nD τ) arg3 fullShare o
        ∗ (∃ d, owns (c : Thread nD τ) arg4 fullShare d) ∗ (∃ d, owns (c : Thread nD τ) arg5 fullShare d)
        ∗ (iprop(owns (c : Thread nD τ) arg1 fullShare mb ∗ owns (c : Thread nD τ) arg2 fullShare xb ∗ owns (c : Thread nD τ) arg3 fullShare o
            ∗ owns (c : Thread nD τ) arg4 fullShare (accStep mb xb (k0_pay1 (F := F)))
            ∗ owns (c : Thread nD τ) arg5 fullShare (cntStep mb (k0_pay2 (F := F)))) -∗ K ⟨⟩))
      ⊢ wp frame (wpE (defs₀ (F := F)) Variants.none c none) E (cc0__centroid_kernel i arg1 harg1 arg2 harg2 arg3 harg3 arg4 harg4 arg5 harg5) K := by
  simp only [cc0__centroid_kernel_eq_skeleton]; unfold cc0__centroid_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg1.eq_unread hf0; obtain rfl := harg2.eq_unread hf1; obtain rfl := harg3.eq_unread hf2
  sl_exec (disch := first | exact hf | exact hl)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_words
    rw [read_writes_cons _ _ origin2]
    simp only [readAt_whole (S := S2048x64) _ _ origin2, readAt_whole (S := S2048x256) _ _ origin2, readAt_whole (S := S64x256) _ _ origin2, readAt_whole (S := S1x64) _ _ origin2, readCov_cons (S := S64x256) _ origin2, readCov_cons (S := S1x64) _ origin2, harg1.read_unread, harg2.read_unread, harg4.read_unread, harg5.read_unread]
  · iexists _; isplitr
    swap; · iexact H4
    ipureintro
    sl_unfold_words
    rw [read_writes_cons _ _ origin2]
    simp only [readAt_whole (S := S2048x64) _ _ origin2, readAt_whole (S := S2048x256) _ _ origin2, readAt_whole (S := S64x256) _ _ origin2, readAt_whole (S := S1x64) _ _ origin2, readCov_cons (S := S64x256) _ origin2, readCov_cons (S := S1x64) _ origin2, harg1.read_unread, harg2.read_unread, harg4.read_unread, harg5.read_unread]

set_option maxHeartbeats 2000000 in
/-- At a point that is neither first nor last: the accumulators, found at `a` and `n`, end one step on; the output block is untouched. -/
theorem run_mid (c : Dev nD) (i : grid0.Coords)
    (arg1 : Memref sig .tc .vmem S2048x64 .f32) (harg1 : arg1.IsWhole) (arg2 : Memref sig .tc .vmem S2048x256 .f32) (harg2 : arg2.IsWhole)
    (arg3 : Memref sig .tc .vmem S64x256 .f32) (harg3 : arg3.IsWhole) (arg4 : Memref sig .tc .vmem S64x256 .f32) (harg4 : arg4.IsWhole)
    (arg5 : Memref sig .tc .vmem S1x64 .f32) (harg5 : arg5.IsWhole) (hf : ¬isFirst i) (hl : ¬isLast i)
    (mb : Vec F S2048x64 .f32) (xb : Vec F S2048x256 .f32) (o : Vec F S64x256 .f32) (a : Vec F S64x256 .f32) (n : Vec F S1x64 .f32) (E : Set ℕ) (K : PUnit → sProp 𝕄) :
    iprop(owns (c : Thread nD τ) arg1 fullShare mb ∗ owns (c : Thread nD τ) arg2 fullShare xb ∗ owns (c : Thread nD τ) arg3 fullShare o
        ∗ owns (c : Thread nD τ) arg4 fullShare a ∗ owns (c : Thread nD τ) arg5 fullShare n
        ∗ (iprop(owns (c : Thread nD τ) arg1 fullShare mb ∗ owns (c : Thread nD τ) arg2 fullShare xb ∗ owns (c : Thread nD τ) arg3 fullShare o
            ∗ owns (c : Thread nD τ) arg4 fullShare (accStep mb xb a)
            ∗ owns (c : Thread nD τ) arg5 fullShare (cntStep mb n)) -∗ K ⟨⟩))
      ⊢ wp frame (wpE (defs₀ (F := F)) Variants.none c none) E (cc0__centroid_kernel i arg1 harg1 arg2 harg2 arg3 harg3 arg4 harg4 arg5 harg5) K := by
  simp only [cc0__centroid_kernel_eq_skeleton]; unfold cc0__centroid_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hf | exact hl)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_words
    rw [read_writes_cons _ _ origin2]
    simp only [readAt_whole (S := S2048x64) _ _ origin2, readAt_whole (S := S2048x256) _ _ origin2, readAt_whole (S := S64x256) _ _ origin2, readAt_whole (S := S1x64) _ _ origin2, readCov_cons (S := S64x256) _ origin2, readCov_cons (S := S1x64) _ origin2, harg1.read_unread, harg2.read_unread, harg4.read_unread, harg5.read_unread]
  · iexists _; isplitr
    swap; · iexact H4
    ipureintro
    sl_unfold_words
    rw [read_writes_cons _ _ origin2]
    simp only [readAt_whole (S := S2048x64) _ _ origin2, readAt_whole (S := S2048x256) _ _ origin2, readAt_whole (S := S64x256) _ _ origin2, readAt_whole (S := S1x64) _ _ origin2, readCov_cons (S := S64x256) _ origin2, readCov_cons (S := S1x64) _ origin2, harg1.read_unread, harg2.read_unread, harg4.read_unread, harg5.read_unread]

set_option maxHeartbeats 2000000 in
/-- At the last point: the accumulators end one step on, and the output block holds the centroids of those final accumulators. -/
theorem run_last (c : Dev nD) (i : grid0.Coords)
    (arg1 : Memref sig .tc .vmem S2048x64 .f32) (harg1 : arg1.IsWhole) (arg2 : Memref sig .tc .vmem S2048x256 .f32) (harg2 : arg2.IsWhole)
    (arg3 : Memref sig .tc .vmem S64x256 .f32) (harg3 : arg3.IsWhole) (arg4 : Memref sig .tc .vmem S64x256 .f32) (harg4 : arg4.IsWhole)
    (arg5 : Memref sig .tc .vmem S1x64 .f32) (harg5 : arg5.IsWhole) (hf : ¬isFirst i) (hl : isLast i)
    (mb : Vec F S2048x64 .f32) (xb : Vec F S2048x256 .f32) (a : Vec F S64x256 .f32) (n : Vec F S1x64 .f32) (E : Set ℕ) (K : PUnit → sProp 𝕄) :
    iprop(owns (c : Thread nD τ) arg1 fullShare mb ∗ owns (c : Thread nD τ) arg2 fullShare xb ∗ (∃ d, owns (c : Thread nD τ) arg3 fullShare d)
        ∗ owns (c : Thread nD τ) arg4 fullShare a ∗ owns (c : Thread nD τ) arg5 fullShare n
        ∗ (iprop(owns (c : Thread nD τ) arg1 fullShare mb ∗ owns (c : Thread nD τ) arg2 fullShare xb ∗ owns (c : Thread nD τ) arg3 fullShare (centroids (cntStep mb n) (accStep mb xb a))
            ∗ owns (c : Thread nD τ) arg4 fullShare (accStep mb xb a)
            ∗ owns (c : Thread nD τ) arg5 fullShare (cntStep mb n)) -∗ K ⟨⟩))
      ⊢ wp frame (wpE (defs₀ (F := F)) Variants.none c none) E (cc0__centroid_kernel i arg1 harg1 arg2 harg2 arg3 harg3 arg4 harg4 arg5 harg5) K := by
  simp only [cc0__centroid_kernel_eq_skeleton]; unfold cc0__centroid_kernel_skel
  unfold owns
  iintro ⟨⟨%f0, %hf0, H0⟩, ⟨%f1, %hf1, H1⟩, ⟨%d2, %f2, -, H2⟩, ⟨%f3, %hf3, H3⟩, ⟨%f4, %hf4, H4⟩, Hk⟩
  obtain rfl := harg1.eq_unread hf0; obtain rfl := harg2.eq_unread hf1
  obtain rfl := harg4.eq_unread hf3; obtain rfl := harg5.eq_unread hf4
  sl_exec (disch := first | exact hf | exact hl)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [read_writes_cons _ _ origin2]
    simp only [readAt_whole (S := S2048x64) _ _ origin2, readAt_whole (S := S2048x256) _ _ origin2, readAt_whole (S := S64x256) _ _ origin2, readAt_whole (S := S1x64) _ _ origin2, readCov_cons (S := S64x256) _ origin2, readCov_cons (S := S1x64) _ origin2, harg1.read_unread, harg2.read_unread, harg4.read_unread, harg5.read_unread]
  isplitl [H3]
  · iexists _; isplitr
    swap; · iexact H3
    ipureintro
    sl_unfold_words
    rw [read_writes_cons _ _ origin2]
    simp only [readAt_whole (S := S2048x64) _ _ origin2, readAt_whole (S := S2048x256) _ _ origin2, readAt_whole (S := S64x256) _ _ origin2, readAt_whole (S := S1x64) _ _ origin2, readCov_cons (S := S64x256) _ origin2, readCov_cons (S := S1x64) _ origin2, harg1.read_unread, harg2.read_unread, harg4.read_unread, harg5.read_unread]
  · iexists _; isplitr
    swap; · iexact H4
    ipureintro
    sl_unfold_words
    rw [read_writes_cons _ _ origin2]
    simp only [readAt_whole (S := S2048x64) _ _ origin2, readAt_whole (S := S2048x256) _ _ origin2, readAt_whole (S := S64x256) _ _ origin2, readAt_whole (S := S1x64) _ _ origin2, readCov_cons (S := S64x256) _ origin2, readCov_cons (S := S1x64) _ origin2, harg1.read_unread, harg2.read_unread, harg4.read_unread, harg5.read_unread]

end Cert.Kernel.Centroid

end
-- ==== Proof.KCentroidFrame.lean ====
import proofs.«175471_j7017976562073_1_alg».proof.Proof.Gen.Kernel.Launch
import proofs.«175471_j7017976562073_1_alg».proof.Proof.Gen.Kernel.Skeleton
import proofs.«175471_j7017976562073_1_alg».proof.Proof.Gen.Kernel.Points
import proofs.«175471_j7017976562073_1_alg».proof.Proof.KCentroidBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Centroid

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The centroid region: what its windows and scratch hold at every grid point

The region runs the body at the 8 points of its grid. Its two input windows are fetched at every point: point `t` sees
rows `2048 t .. 2048 t + 2047` of the weights and of the points. The accumulators live in two scratch buffers that the
pipeline never touches, so after point `t` they hold the sums over the blocks `0 .. t`. The output window is idle until the
last point, where it receives the centroids and is written back. All of it is stated at a parameter `V`: the contents of
the core's buffers when the region is entered. -/

variable (V : (c : Dev nD) → (b : Ref sig .tc) → Buf (Elt F) ((c : Thread nD τ).loc b))

/-! ## Which grid points are first and last, and where the output window is idle -/

theorem first_iff : ∀ t : Fin cfg0.N, isFirst (grid0.coords t) ↔ t.val = 0 :=
  (by decide +kernel : ∀ t : Fin grid0.N, isFirst (grid0.coords t) ↔ t.val = 0)
theorem last_iff : ∀ t : Fin cfg0.N, isLast (grid0.coords t) ↔ t.val = 7 :=
  (by decide +kernel : ∀ t : Fin grid0.N, isLast (grid0.coords t) ↔ t.val = 7)
theorem live_m : ∀ t : Fin cfg0.N, cfg0.idle 0 (grid0.coords t) = false := by decide +kernel
theorem live_x : ∀ t : Fin cfg0.N, cfg0.idle 1 (grid0.coords t) = false := by decide +kernel
theorem idle_out : ∀ t : Fin cfg0.N, ¬isLast (grid0.coords t) → cfg0.idle 2 (grid0.coords t) = true := by decide +kernel
theorem noflush_out : ∀ t : Fin cfg0.N, ¬isLast (grid0.coords t) → (cfg0.win 2).flush t = false := by decide +kernel
theorem live_out : ∀ t : Fin cfg0.N, isLast (grid0.coords t) → cfg0.idle 2 (grid0.coords t) = false := by decide +kernel

/-! ## The input blocks -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of weights at point `t`: 2048 rows of 64. -/
abbrev mblk (c : Dev nD) (t : Fin cfg0.N) : Vec F S2048x64 .f32 := blk0 V c 0 t
/-- The block of points at point `t`: 2048 rows of 256. -/
abbrev xblk (c : Dev nD) (t : Fin cfg0.N) : Vec F S2048x256 .f32 := blk0 V c 1 t

/-! ## The accumulators after each point -/

/-- The weighted sums after point `n`: one step from zero at the first point, one step from the point before afterwards. -/
def accAt (c : Dev nD) : (n : ℕ) → n < cfg0.N → Vec F S64x256 .f32
  | 0, h => accStep (mblk V c ⟨0, h⟩) (xblk V c ⟨0, h⟩) (k0_pay1 (F := F))
  | n + 1, h => accStep (mblk V c ⟨n + 1, h⟩) (xblk V c ⟨n + 1, h⟩) (accAt c n (Nat.lt_of_succ_lt h))

/-- The weight totals after point `n`. -/
def cntAt (c : Dev nD) : (n : ℕ) → n < cfg0.N → Vec F S1x64 .f32
  | 0, h => cntStep (mblk V c ⟨0, h⟩) (k0_pay2 (F := F))
  | n + 1, h => cntStep (mblk V c ⟨n + 1, h⟩) (cntAt c n (Nat.lt_of_succ_lt h))

theorem accAt_first (c : Dev nD) (t : Fin cfg0.N) (h0 : t.val = 0) :
    accAt V c t.val t.isLt = accStep (mblk V c t) (xblk V c t) (k0_pay1 (F := F)) := by
  obtain ⟨n, hn⟩ := t; cases n with
  | zero => rfl
  | succ n => exact absurd h0 (Nat.succ_ne_zero n)
theorem cntAt_first (c : Dev nD) (t : Fin cfg0.N) (h0 : t.val = 0) :
    cntAt V c t.val t.isLt = cntStep (mblk V c t) (k0_pay2 (F := F)) := by
  obtain ⟨n, hn⟩ := t; cases n with
  | zero => rfl
  | succ n => exact absurd h0 (Nat.succ_ne_zero n)
theorem accAt_later (c : Dev nD) (t : Fin cfg0.N) (h0 : t.val ≠ 0) :
    accAt V c t.val t.isLt = accStep (mblk V c t) (xblk V c t) (accAt V c (t.val - 1) (Nat.lt_of_le_of_lt (Nat.sub_le _ _) t.isLt)) := by
  obtain ⟨n, hn⟩ := t; cases n with
  | zero => exact absurd rfl h0
  | succ n => rfl
theorem cntAt_later (c : Dev nD) (t : Fin cfg0.N) (h0 : t.val ≠ 0) :
    cntAt V c t.val t.isLt = cntStep (mblk V c t) (cntAt V c (t.val - 1) (Nat.lt_of_le_of_lt (Nat.sub_le _ _) t.isLt)) := by
  obtain ⟨n, hn⟩ := t; cases n with
  | zero => exact absurd rfl h0
  | succ n => rfl

/-! ## The region's invariant -/

/-- The two scratch operands, whole scoped buffers of the kernel's own. -/
abbrev scA : Memref sig .tc .vmem S64x256 .f32 := Memref.whole cc0_scratch0
abbrev scN : Memref sig .tc .vmem S1x64 .f32 := Memref.whole cc0_scratch1

/-- The core's other scoped buffers (the staging buffers of the second region), which this region never touches: each
    whole, at some contents. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- What the region is entered with beside its windows: both scratch buffers at anything, the other scoped buffers, the
    generator register. -/
theorem phiA_eq (c : Dev nD) :
    (Pipeline.ΦA spec0 c : sProp 𝕄)
      = iprop(iprop((∃ d, owns (c : Thread nD τ) scA fullShare d) ∗ (∃ d, owns (c : Thread nD τ) scN fullShare d) ∗ others (F := F) c) ∗ (∃ r, prngReg c r)) := by
  unfold Pipeline.ΦA others; rw [scopedRest0_eq]; simp only [scA, scN, owns_whole]; rfl

/-- The invariant before position `n`: at the start, the scratch at anything; afterwards, the scratch at the accumulators
    the point before left. -/
def inv (c : Dev nD) : (n : ℕ) → n ≤ cfg0.N → sProp 𝕄
  | 0, _ => Pipeline.ΦA spec0 c
  | n + 1, hn => iprop(iprop(owns (c : Thread nD τ) scA fullShare (accAt V c n hn) ∗ owns (c : Thread nD τ) scN fullShare (cntAt V c n hn) ∗ others (F := F) c) ∗ (∃ r, prngReg c r))

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop(iprop(owns (c : Thread nD τ) scA fullShare (accAt V c n hn) ∗ owns (c : Thread nD τ) scN fullShare (cntAt V c n hn) ∗ others (F := F) c) ∗ (∃ r, prngReg c r)) := rfl
theorem inv_pos (c : Dev nD) (n : ℕ) (h : n ≤ cfg0.N) (hz : n ≠ 0) :
    inv V c n h = iprop(iprop(owns (c : Thread nD τ) scA fullShare (accAt V c (n - 1) (by omega)) ∗ owns (c : Thread nD τ) scN fullShare (cntAt V c (n - 1) (by omega)) ∗ others (F := F) c) ∗ (∃ r, prngReg c r)) := by
  cases n with
  | zero => exact absurd rfl hz
  | succ n => rfl

/-! ## The proof data -/

/-- The region's proof data on core `c`: the arrays as the region finds them; after the body each input buffer holds its
    block, and the output buffer (consulted at the last point only) the centroids of the accumulators so far; the invariant
    above; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => centroids (cntAt V c t.val t.isLt) (accAt V c t.val t.isLt)
  Φ t := inv V c t.val (Nat.le_of_lt_succ t.isLt)
  q _ := fullShare
  owed _ := 0

theorem A_eq (c : Dev nD) (w : Fin cfg0.W) : (dat0 V c).A w = V c (Pipeline.arrRef spec0 w) := by dsimp only [dat0]
theorem after_m (c : Dev nD) (t : Fin cfg0.N) : (dat0 V c).after 0 t = blk0 V c 0 t := by dsimp only [dat0]
theorem after_x (c : Dev nD) (t : Fin cfg0.N) : (dat0 V c).after 1 t = blk0 V c 1 t := by dsimp only [dat0]
theorem after_out (c : Dev nD) (t : Fin cfg0.N) :
    (dat0 V c).after 2 t = centroids (cntAt V c t.val t.isLt) (accAt V c t.val t.isLt) := by dsimp only [dat0]

/-- The weights' staging buffer holds the point's block when the body is called. -/
theorem before_m (c : Dev nD) (t : Fin cfg0.N) (d) : (dat0 V c).before 0 t d = mblk V c t :=
  ((dat0 V c).before_in_eq_fetched 0 rfl (fun _ => rfl) (fun _ _ _ => rfl)
    (fun t => by rw [after_m]; unfold Dat.blockOf blk0; rw [A_eq]; try rfl) t d).trans
    (by unfold Dat.fetched Dat.blockOf; rw [A_eq]; rfl)
/-- So does the points'. -/
theorem before_x (c : Dev nD) (t : Fin cfg0.N) (d) : (dat0 V c).before 1 t d = xblk V c t :=
  ((dat0 V c).before_in_eq_fetched 1 rfl (fun _ => rfl) (fun _ _ _ => rfl)
    (fun t => by rw [after_x]; unfold Dat.blockOf blk0; rw [A_eq]; try rfl) t d).trans
    (by unfold Dat.fetched Dat.blockOf; rw [A_eq]; rfl)

theorem phi_before (c : Dev nD) (t : Fin cfg0.N) : (dat0 V c).Φ t.castSucc = inv V c t.val (Nat.le_of_lt t.isLt) := by
  dsimp only [dat0]; simp only [Fin.coe_castSucc]
theorem phi_after (c : Dev nD) (t : Fin cfg0.N) :
    (dat0 V c).Φ t.succ = iprop(iprop(owns (c : Thread nD τ) scA fullShare (accAt V c t.val t.isLt) ∗ owns (c : Thread nD τ) scN fullShare (cntAt V c t.val t.isLt) ∗ others (F := F) c) ∗ (∃ r, prngReg c r)) := rfl
theorem leaves_m (c : Dev nD) (t : Fin cfg0.N) : (dat0 V c).leavesExact 0 t = owns (c : Thread nD τ) (st0_0 t) fullShare (mblk V c t) := by
  unfold Dat.leavesExact; rw [live_m t, after_m]
theorem leaves_x (c : Dev nD) (t : Fin cfg0.N) : (dat0 V c).leavesExact 1 t = owns (c : Thread nD τ) (st0_1 t) fullShare (xblk V c t) := by
  unfold Dat.leavesExact; rw [live_x t, after_x]

/-! ## The body obligation -/

set_option maxHeartbeats 4000000 in
/-- The body at any point: the input buffers hold the point's blocks; the invariant hands over the scratch (at anything at
    the first point, at the accumulators so far afterwards) and takes it back one step on; the output buffer is passed
    through untouched except at the last point, where it receives the centroids. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ (dat0 V c).leavesExact 0 t ∗ (dat0 V c).leavesExact 1 t ∗ (dat0 V c).leavesExact 2 t)) := by
  unfold bodyAt0
  simp only [before_m, before_x]
  rw [show (dat0 V c).owesAt () t.succ = (dat0 V c).owesAt () t.castSucc from rfl, phi_after, leaves_m, leaves_x, phi_before]
  have hN : t.val < 8 := lt_of_lt_of_eq t.isLt (show cfg0.N = 8 from N_0)
  by_cases h0 : t.val = 0
  · have hf : isFirst (grid0.coords t) := (first_iff t).mpr h0
    have hl : ¬isLast (grid0.coords t) := fun h => by have := (last_iff t).mp h; omega
    rw [inv_zero V c _ _ h0, phiA_eq, Dat.leavesExact_idle (dat0 V c) 2 t (idle_out t hl) (noflush_out t hl),
      accAt_first V c t h0, cntAt_first V c t h0]
    iintro ⟨⟨⟨HA, HN, HR⟩, Hg⟩, Ho, ⟨%d0, H0⟩, ⟨%d1, H1⟩, ⟨%d2, H2⟩⟩
    iapply (run_first c (grid0.coords t) _ _ _ _ _ _ _ _ _ _ hf hl (mblk V c t) (xblk V c t) _ Set.univ _)
    isplitl [H0]; · iexact H0
    isplitl [H1]; · iexact H1
    isplitl [H2]; · iexact H2
    isplitl [HA]; · iexact HA
    isplitl [HN]; · iexact HN
    iintro ⟨H0, H1, H2, HA, HN⟩
    isplitl [HA HN HR Hg]
    · isplitr [Hg]
      · isplitl [HA]; · iexact HA
        isplitl [HN]; · iexact HN
        iexact HR
      iexact Hg
    isplitl [Ho]; · iexact Ho
    isplitl [H0]; · iexact H0
    isplitl [H1]; · iexact H1
    iexists _; iexact H2
  · have hf : ¬isFirst (grid0.coords t) := fun h => h0 ((first_iff t).mp h)
    rw [inv_pos V c _ _ h0, accAt_later V c t h0, cntAt_later V c t h0]
    by_cases h7 : t.val = 7
    · have hl : isLast (grid0.coords t) := (last_iff t).mpr h7
      rw [show (dat0 V c).leavesExact 2 t = owns (c : Thread nD τ) (st0_2 t) fullShare ((dat0 V c).after 2 t) from by
        unfold Dat.leavesExact; rw [live_out t hl], after_out, accAt_later V c t h0, cntAt_later V c t h0]
      iintro ⟨⟨⟨HA, HN, HR⟩, Hg⟩, Ho, ⟨%d0, H0⟩, ⟨%d1, H1⟩, ⟨%d2, H2⟩⟩
      iapply (run_last c (grid0.coords t) _ _ _ _ _ _ _ _ _ _ hf hl (mblk V c t) (xblk V c t) _ _ Set.univ _)
      isplitl [H0]; · iexact H0
      isplitl [H1]; · iexact H1
      isplitl [H2]; · iexists _; iexact H2
      isplitl [HA]; · iexact HA
      isplitl [HN]; · iexact HN
      iintro ⟨H0, H1, H2, HA, HN⟩
      isplitl [HA HN HR Hg]
      · isplitr [Hg]
        · isplitl [HA]; · iexact HA
          isplitl [HN]; · iexact HN
          iexact HR
        iexact Hg
      isplitl [Ho]; · iexact Ho
      isplitl [H0]; · iexact H0
      isplitl [H1]; · iexact H1
      iexact H2
    · have hl : ¬isLast (grid0.coords t) := fun h => h7 ((last_iff t).mp h)
      rw [Dat.leavesExact_idle (dat0 V c) 2 t (idle_out t hl) (noflush_out t hl)]
      iintro ⟨⟨⟨HA, HN, HR⟩, Hg⟩, Ho, ⟨%d0, H0⟩, ⟨%d1, H1⟩, ⟨%d2, H2⟩⟩
      iapply (run_mid c (grid0.coords t) _ _ _ _ _ _ _ _ _ _ hf hl (mblk V c t) (xblk V c t) _ _ _ Set.univ _)
      isplitl [H0]; · iexact H0
      isplitl [H1]; · iexact H1
      isplitl [H2]; · iexact H2
      isplitl [HA]; · iexact HA
      isplitl [HN]; · iexact HN
      iintro ⟨H0, H1, H2, HA, HN⟩
      isplitl [HA HN HR Hg]
      · isplitr [Hg]
        · isplitl [HA]; · iexact HA
          isplitl [HN]; · iexact HN
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem phi_in (c : Dev nD) : Pipeline.ΦA spec0 c ⊢ (dat0 V c).Φ 0 := by
  rw [show (dat0 V c).Φ 0 = inv V c 0 (Nat.zero_le _) from rfl, inv_zero V c 0 _ rfl]

/-- After the last point the invariant gives the same back, the accumulators' contents forgotten. -/
theorem phi_out (c : Dev nD) : (dat0 V c).Φ (Fin.last cfg0.N) ⊢ Pipeline.ΦA spec0 c := by
  rw [show (dat0 V c).Φ (Fin.last cfg0.N) = inv V c (Fin.last cfg0.N).val (Nat.le_of_lt_succ (Fin.last cfg0.N).isLt) from rfl,
    inv_pos V c _ _ (by rw [Fin.val_last]; have : cfg0.N = 8 := N_0; omega), phiA_eq]
  iintro ⟨⟨HA, HN, HR⟩, Hg⟩
  isplitl [HA HN HR]
  · isplitl [HA]; · iexists _; iexact HA
    isplitl [HN]; · iexists _; iexact HN
    iexact HR
  iexact Hg

end Cert.Kernel.Centroid

end
-- ==== Proof.KAssignBody.lean ====
import proofs.«175471_j7017976562073_1_alg».proof.Proof.Gen.Kernel.Launch
import proofs.«175471_j7017976562073_1_alg».proof.Proof.Gen.Kernel.Skeleton
import proofs.«175471_j7017976562073_1_alg».proof.Proof.Gen.Kernel.Points
import proofs.«175471_j7017976562073_1_alg».proof.Proof.LibWholeStore
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Assign

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.WholeStore Idealize.ShloMosaic.ValueIdx

/-! # The assignment kernel's body

For a block of 2048 points `xb` and the 64 centroids `mub`, the body writes, centroid by centroid, the row of L1 distances
of the block's points to that centroid into its output block (64 rows of 2048), reads the block back whole, and replaces
it by the Student-t kernel of the distances normalised over the 64 centroids. -/

/-- A rank-2 offset at the origin. -/
theorem origin2 : (![0, 0] : Fin 2 → ℕ) = fun _ => 0 := by funext a; fin_cases a <;> rfl

/-- Row `r` of the centroid block, as a 1 x 256 array. -/
def muRow (mub : Vec F S64x256 .f32) (r : Fin 64) : Vec F S1x256 .f32 := fun z => mub (ix2 r (z 1))

section Loads
variable {sg : RefSig} {κ : Kind} {sp : Space}

/-- A load of the whole points block reads the block. -/
theorem load_whole {S : Shape} (a : Memref sg κ sp S .f32) (ha : a.IsWhole) (X : S.Idx → Elt F .f32)
    {off : Fin S.rank → Nat} (h : off = fun _ => 0) (inb : ∀ b, off b + S.size b ≤ S.size b) :
    View.readAt (Elt F) a.view (Rect.unit off S.size inb).toLoadRect (ha.unread X) = X := by
  rw [readAt_whole (S := S) _ _ h, ha.read_unread]

/-- A load of row `r` of the centroid block reads that row. -/
theorem load_row (a : Memref sg κ sp S64x256 .f32) (ha : a.IsWhole) (mub : Vec F S64x256 .f32) (r : ℕ) (hr : r < 64)
    (inb : ∀ b, (![r, 0] : Fin 2 → Nat) b + S1x256.size b ≤ S64x256.size b) :
    View.readAt (Elt F) a.view (Rect.unit (s := S64x256) ![r, 0] S1x256.size inb).toLoadRect (ha.unread mub) = muRow mub ⟨r, hr⟩ := by
  rw [View.readAt_eq_ld, ha.read_unread]
  funext z
  show mub _ = mub _
  congr 1
  funext b
  match b with
  | ⟨0, _⟩ => apply Fin.ext; show r + 1 * (z 0).val = r; have := (z 0).isLt; simp at this; omega
  | ⟨1, _⟩ => apply Fin.ext; show 0 + 1 * (z 1).val = (z 1).val; omega

end Loads

/-- One row of distances: for each of the block's 2048 points, the sum over the 256 coordinates of `|x - m|`. -/
def rowDist (xb : Vec F S2048x256 .f32) (mr : Vec F S1x256 .f32) : FVec F S1x2048 .f32 := k1_pay3 xb mr

/-- The 64 x 2048 block of distances: row `r` is the row of distances to centroid `r`. -/
def distBlk (xb : Vec F S2048x256 .f32) (mub : Vec F S64x256 .f32) : Vec F S64x2048 .f32 :=
  fun y => rowDist xb (muRow mub (y 0)) (ix2 0 (y 1))

section Pieces
variable {sg : RefSig} {κ : Kind} {sp : Space}

/-- A load through the whole shape after any stores reads what the stores leave. -/
theorem readCov_whole {S : Shape} {e : EltTy} {Val : EltTy → Type} [∀ e, Nonempty (Val e)] (v : View sg κ sp S e)
    (L : List (View.Piece Val S e)) {off : Fin S.rank → Nat} (h : off = fun _ => 0) (inb : ∀ b, off b + S.size b ≤ S.size b) :
    v.readCov L (Rect.unit off S.size inb).toLoadRect = View.canon L := by
  rw [View.readCov_eq_canon']; exact View.ld_unit_zero h inb (View.canon L)

/-- No piece: nothing to check. -/
theorem pieces_nil {S : Shape} {e : EltTy} {Val : EltTy → Type} (G : S.Idx → Val e) :
    ∀ p ∈ ([] : List (View.Piece Val S e)), ∀ x : p.1.shape.Idx, p.2 x = G (p.1.emb x) :=
  fun _ h => absurd h List.not_mem_nil

/-- One more piece that is a block of `G`. -/
theorem pieces_cons {S : Shape} {e : EltTy} {Val : EltTy → Type} (G : S.Idx → Val e) (r : Rect S) (w : r.shape.Idx → Val e)
    (L : List (View.Piece Val S e)) (hp : ∀ x, w x = G (r.emb x))
    (hL : ∀ p ∈ L, ∀ x : p.1.shape.Idx, p.2 x = G (p.1.emb x)) :
    ∀ p ∈ ((⟨r, w⟩ : View.Piece Val S e) :: L), ∀ x : p.1.shape.Idx, p.2 x = G (p.1.emb x) := by
  intro p hm
  rcases List.mem_cons.mp hm with rfl | hm
  · exact hp
  · exact hL p hm

/-- The row of distances to centroid `r`, computed from the loaded points block and the loaded row `r` of the centroid block
    and stored through row `r` of the output block, is the block of `distBlk` that row names. -/
theorem piece_row (a1 : Memref sg κ sp S2048x256 .f32) (h1 : a1.IsWhole) (a2 : Memref sg κ sp S64x256 .f32) (h2 : a2.IsWhole)
    (xb : Vec F S2048x256 .f32) (mub : Vec F S64x256 .f32) (r : ℕ) (hr : r < 64)
    (inb1 : ∀ b, (![0, 0] : Fin 2 → Nat) b + S2048x256.size b ≤ S2048x256.size b)
    (inb2 : ∀ b, (![r, 0] : Fin 2 → Nat) b + S1x256.size b ≤ S64x256.size b)
    (inb3 : ∀ b, (![r, 0] : Fin 2 → Nat) b + S1x2048.size b ≤ S64x2048.size b)
    (w : FVec F S1x2048 .f32)
    (hw : w = rowDist (View.readAt (Elt F) a1.view (Rect.unit (s := S2048x256) ![0, 0] S2048x256.size inb1).toLoadRect (h1.unread xb))
                (View.readAt (Elt F) a2.view (Rect.unit (s := S64x256) ![r, 0] S1x256.size inb2).toLoadRect (h2.unread mub))) :
    ∀ x : (Rect.unit (s := S64x2048) ![r, 0] S1x2048.size inb3).shape.Idx,
      w x = distBlk xb mub ((Rect.unit (s := S64x2048) ![r, 0] S1x2048.size inb3).emb x) := by
  subst hw
  rw [load_whole a1 h1 xb origin2, load_row a2 h2 mub r hr]
  intro x
  unfold distBlk
  have h0 : (Rect.unit (s := S64x2048) ![r, 0] S1x2048.size inb3).emb x 0 = (⟨r, hr⟩ : Fin 64) :=
    Fin.ext (by show r + 1 * (x 0).val = r; have := (x 0).isLt; simp at this; omega)
  have hx : x = ix2 (0 : Fin 1) ((Rect.unit (s := S64x2048) ![r, 0] S1x2048.size inb3).emb x 1) := by
    funext b
    match b with
    | ⟨0, _⟩ => apply Fin.ext; show (x 0).val = 0; have := (x 0).isLt; simp at this; omega
    | ⟨1, _⟩ => apply Fin.ext; show (x 1).val = 0 + 1 * (x 1).val; omega
  rw [h0]
  exact congrArg _ hx

end Pieces

/-- What the body leaves in its output block: `q / (sum over the 64 rows of q)` with `q = 1 / (1 + distance)`. -/
def assignOut (xb : Vec F S2048x256 .f32) (mub : Vec F S64x256 .f32) : Vec F S64x2048 .f32 := k1_pay2 (distBlk xb mub)

set_option maxHeartbeats 8000000 in
/-- The body on whole staging buffers: the inputs are left as they were, and the output block, whatever it held, ends at
    `assignOut` of the two input blocks. -/
theorem run_assign (c : Dev nD) (i : grid1.Coords)
    (arg1 : Memref sig .tc .vmem S2048x256 .f32) (harg1 : arg1.IsWhole) (arg2 : Memref sig .tc .vmem S64x256 .f32) (harg2 : arg2.IsWhole)
    (arg3 : Memref sig .tc .vmem S64x2048 .f32) (harg3 : arg3.IsWhole)
    (xb : Vec F S2048x256 .f32) (mub : Vec F S64x256 .f32) (E : Set ℕ) (K : PUnit → sProp 𝕄) :
    iprop(owns (c : Thread nD τ) arg1 fullShare xb ∗ owns (c : Thread nD τ) arg2 fullShare mub ∗ (∃ d, owns (c : Thread nD τ) arg3 fullShare d)
        ∗ (iprop(owns (c : Thread nD τ) arg1 fullShare xb ∗ owns (c : Thread nD τ) arg2 fullShare mub
            ∗ owns (c : Thread nD τ) arg3 fullShare (assignOut xb mub)) -∗ K ⟨⟩))
      ⊢ wp frame (wpE (defs₀ (F := F)) Variants.none c none) E (cc1__assign_kernel i arg1 harg1 arg2 harg2 arg3 harg3) K := by
  simp only [cc1__assign_kernel_eq_skeleton]; unfold cc1__assign_kernel_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  sl_unfold_words
  rw [read_writes_cons (S := S64x2048) _ _ origin2]
  unfold assignOut
  refine congrArg k1_pay2 ?_
  rw [readCov_whole _ _ origin2]
  funext y
  refine View.canon_apply_of_pieces (distBlk xb mub) _ ?_ y (View.cover_of_tiledL (s := S64x2048) _ S1x2048.size (by sl_kernel_rfl) y)
  iterate 64 (refine pieces_cons _ _ _ _ (piece_row arg1 harg1 arg2 harg2 xb mub _ (by decide) _ _ _ _ rfl) ?_)
  exact pieces_nil _

end Cert.Kernel.Assign

end
-- ==== Proof.KAssignFrame.lean ====
import proofs.«175471_j7017976562073_1_alg».proof.Proof.Gen.Kernel.Launch
import proofs.«175471_j7017976562073_1_alg».proof.Proof.Gen.Kernel.Skeleton
import proofs.«175471_j7017976562073_1_alg».proof.Proof.Gen.Kernel.Points
import proofs.«175471_j7017976562073_1_alg».proof.Proof.KAssignBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Assign

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The assignment region: what its windows hold at every grid point

The region runs the body at the 8 points of its grid. Point `t` sees rows `2048 t .. 2048 t + 2047` of the points and,
at every point, the whole 64 x 256 table of centroids (fetched once, at the first point, and left in place); it writes
columns `2048 t .. 2048 t + 2047` of the 64 x 16384 result. Stated at a parameter `V`: the contents of the core's buffers
when the region is entered. -/

variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of points at point `t`: 2048 rows of 256. -/
abbrev xblk (c : Dev nD) (t : Fin cfg1.N) : Vec F S2048x256 .f32 := blk1 V c 0 t
/-- The centroid table as point `t` sees it: 64 rows of 256. -/
abbrev mublk (c : Dev nD) (t : Fin cfg1.N) : Vec F S64x256 .f32 := blk1 V c 1 t

/-- The region's proof data on core `c`: the arrays as the region finds them; after the body each input buffer holds its
    block and the output buffer the normalised kernel of the block's distances; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => assignOut (xblk V c t) (mublk V c t)
  Φ _ := Pipeline.ΦA spec1 c
  q _ := fullShare
  owed _ := 0

theorem A_eq (c : Dev nD) (w : Fin cfg1.W) : (dat1 V c).A w = V c (Pipeline.arrRef spec1 w) := by dsimp only [dat1]
theorem after_x (c : Dev nD) (t : Fin cfg1.N) : (dat1 V c).after 0 t = blk1 V c 0 t := by dsimp only [dat1]
theorem after_mu (c : Dev nD) (t : Fin cfg1.N) : (dat1 V c).after 1 t = blk1 V c 1 t := by dsimp only [dat1]
theorem after_out (c : Dev nD) (t : Fin cfg1.N) : (dat1 V c).after 2 t = assignOut (xblk V c t) (mublk V c t) := by dsimp only [dat1]

/-- The points' staging buffer holds the point's block when the body is called. -/
theorem before_x (c : Dev nD) (t : Fin cfg1.N) (d) : (dat1 V c).before 0 t d = xblk V c t :=
  ((dat1 V c).before_in_eq_fetched 0 rfl (fun _ => rfl) (fun _ _ _ => rfl)
    (fun t => by rw [after_x]; unfold Dat.blockOf blk1; rw [A_eq]; try rfl) t d).trans
    (by unfold Dat.fetched Dat.blockOf; rw [A_eq]; rfl)
/-- The centroids' staging buffer holds the table at every point, fetched there or not: its block index never moves. -/
theorem before_mu (c : Dev nD) (t : Fin cfg1.N) (d) : (dat1 V c).before 1 t d = mublk V c t :=
  ((dat1 V c).before_in_eq_fetched 1 rfl (fun _ => rfl) (fun _ _ _ => rfl)
    (fun t => by rw [after_mu]; unfold Dat.blockOf blk1; rw [A_eq]; try rfl) t d).trans
    (by unfold Dat.fetched Dat.blockOf; rw [A_eq]; rfl)

set_option maxHeartbeats 2000000 in
/-- The body at any point: the input buffers hold the point's blocks, so the body's triple applies; the invariant and the
    core's dues pass through unread. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t))) := by
  unfold bodyAt1
  simp only [before_x, before_mu]
  rw [show (dat1 V c).Φ t.succ = (dat1 V c).Φ t.castSucc from rfl,
    show (dat1 V c).owesAt () t.succ = (dat1 V c).owesAt () t.castSucc from rfl, after_x, after_mu, after_out]
  iintro ⟨HΦ, Ho, ⟨%d0, H0⟩, ⟨%d1, H1⟩, ⟨%d2, H2⟩⟩
  iapply (run_assign c (grid1.coords t) _ _ _ _ _ _ (xblk V c t) (mublk V c t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is its invariant, and the invariant is what it gives back. -/
theorem phi_in (c : Dev nD) : Pipeline.ΦA spec1 c ⊢ (dat1 V c).Φ 0 := Idealize.SL.BI.Entails.refl _
theorem phi_out (c : Dev nD) : (dat1 V c).Φ (Fin.last cfg1.N) ⊢ Pipeline.ΦA spec1 c := Idealize.SL.BI.Entails.refl _

end Cert.Kernel.Assign

end
-- ==== Proof.KWhole.lean ====
import proofs.«175471_j7017976562073_1_alg».proof.Proof.Gen.Kernel.Launch
import proofs.«175471_j7017976562073_1_alg».proof.Proof.Gen.Kernel.Skeleton
import proofs.«175471_j7017976562073_1_alg».proof.Proof.Gen.Kernel.Points
import proofs.«175471_j7017976562073_1_alg».proof.Proof.KCentroidFrame
import proofs.«175471_j7017976562073_1_alg».proof.Proof.KAssignFrame
import proofs.«175471_j7017976562073_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program: the centroid region, the assignment region, a transpose

@main enters the first region from the launch memory, the second from what the first leaves, and then transposes the
second region's 64 x 16384 result on the host. The contents of the core's unscoped buffers at each of the three
boundaries are named below; the run ends with every unscoped buffer at the last of them. -/

variable (m : (ℓ : Loc nD τ sig) → Buf (Elt F) ℓ) (ρ : Dev nD → PrngReg)

/-! ## The buffers at each boundary -/

/-- At launch. -/
abbrev W0 : Dev nD → Valuation τ sig (Elt F) := fun c b => m (c, b)
/-- The same read at the TensorCore's references: what the first region is entered with. -/
abbrev Va : (c : Dev nD) → (b : Ref sig .tc) → Buf (Elt F) ((c : Thread nD τ).loc b) := fun c b => W0 m c b
/-- After the first region: its arrays at what its write-backs leave, every other buffer as before. -/
def W1 (c : Dev nD) : Valuation τ sig (Elt F) :=
  Pipeline.withArrays spec0 c (W0 m c) fun w => (Centroid.dat0 (Va m) c).arrAt w cfg0.N
theorem W1_arr (c : Dev nD) (w : Fin cfg0.W) :
    W1 m c (Proc.devRef .tc (Pipeline.arrRef spec0 w)) = (Centroid.dat0 (Va m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- What the second region is entered with. -/
abbrev Vb : (c : Dev nD) → (b : Ref sig .tc) → Buf (Elt F) ((c : Thread nD τ).loc b) := fun c b => W1 m c b
theorem hF0 (c : Dev nD) (w : Fin cfg0.W) : (Centroid.dat0 (Va m) c).arrAt w cfg0.N = Vb m c (Pipeline.arrRef spec0 w) :=
  (W1_arr m c w).symm
theorem hrest0 (c : Dev nD) : ∀ b, b ∉ Finset.univ.image (Pipeline.arrRef spec0) → Vb m c b = Va m c b :=
  fun b hb => W1_of_ne m c b fun w e => hb (Finset.mem_image.mpr ⟨w, Finset.mem_univ _, e⟩)

/-- After the second region. -/
def W2 (c : Dev nD) : Valuation τ sig (Elt F) :=
  Pipeline.withArrays spec1 c (W1 m c) fun w => (Assign.dat1 (Vb m) c).arrAt w cfg1.N
theorem W2_arr (c : Dev nD) (w : Fin cfg1.W) :
    W2 m c (Proc.devRef .tc (Pipeline.arrRef spec1 w)) = (Assign.dat1 (Vb m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev Vc : (c : Dev nD) → (b : Ref sig .tc) → Buf (Elt F) ((c : Thread nD τ).loc b) := fun c b => W2 m c b
theorem hF1 (c : Dev nD) (w : Fin cfg1.W) : (Assign.dat1 (Vb m) c).arrAt w cfg1.N = Vc m c (Pipeline.arrRef spec1 w) :=
  (W2_arr m c w).symm
theorem hrest1 (c : Dev nD) : ∀ b, b ∉ Finset.univ.image (Pipeline.arrRef spec1) → Vc m c b = Vb m c b :=
  fun b hb => W2_of_ne m c b fun w e => hb (Finset.mem_image.mpr ⟨w, Finset.mem_univ _, e⟩)

/-- After the transpose: the end. -/
abbrev W3 : Dev nD → Valuation τ sig (Elt F) := fun c => StableHlo.after hostOps2 (W2 m c)

/-! ## The proof data family and the thread state -/

/-- No pallas_call has a prefetched table. -/
abbrev adm : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => Centroid.dat0 (Va m) c
  | ⟨1, _⟩ => fun c => Assign.dat1 (Vb m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)

theorem hostOps2_fresh : (hostOps2 : List (HloOp τ sig (Elt F))).Forall fun op => op.fresh = ∅ := by
  simp only [List.Forall]; repeat' constructor

/-- The transpose as a segment over the unscoped buffers from `W2`. -/
abbrev tailSeg : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

/-- The last thread state without the dues: every unscoped buffer at `W3`, the generator register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered with every unscoped buffer at `W0`, left with them at `W1`. Its
    arrays are split out of the unscoped buffers at entry and put back, at what the write-backs leave, at exit; the
    generator register goes into the region's invariant and comes back; the kernel has no semaphore of its own and the
    core owes nothing. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Centroid.body_obligation0 (Va m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have hback : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (Centroid.phi_out (Va m) c).trans hback
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (Vb m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W1`, left with them at `W2`. Its
    arrays are split out of the unscoped buffers at entry and put back, at what the write-backs leave, at exit; the
    generator register goes into the region's invariant and comes back; the kernel has no semaphore of its own and the
    core owes nothing. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Assign.body_obligation1 (Vb m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb m c) (Vc m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m), .host (tailSeg m) ]

theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters, every weakly fair execution of @main terminates, nothing faulting, and
    every final memory holds each unscoped buffer of each core at `W3`: the launch memory changed by the two regions'
    write-backs and the transpose. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (StableHlo.after hostOps2 (W2 m c)) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-! ## The arguments end as launched

Neither argument is written by the transpose; each region reads an argument through an input window (whose array the
write-backs leave alone) or does not touch it. -/

theorem W3_of_not_written (c : Dev nD) (r : Ref sig .tc) (h : r ∉ hostOps2_W) :
    W3 m c (Proc.devRef .tc r) = W2 m c (Proc.devRef .tc r) :=
  StableHlo.after_of_writes_sub hostOps2 _ hostOps2_writes h

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_not_written m c main_arg0 (by decide)
    _ = W1 m c (Proc.devRef .tc main_arg0) := (W2_arr m c 0).trans (((Assign.dat1 (Vb m) c).arrAt_in 0 rfl _).trans (Assign.A_eq (Vb m) c 0))
    _ = W0 m c (Proc.devRef .tc main_arg0) := (W1_arr m c 1).trans (((Centroid.dat0 (Va m) c).arrAt_in 1 rfl _).trans (Centroid.A_eq (Va m) c 1))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_not_written m c main_arg1 (by decide)
    _ = W1 m c (Proc.devRef .tc main_arg1) := W2_of_ne m c main_arg1 (by decide)
    _ = W0 m c (Proc.devRef .tc main_arg1) := (W1_arr m c 0).trans (((Centroid.dat0 (Va m) c).arrAt_in 0 rfl _).trans (Centroid.A_eq (Va m) c 0))
    _ = m ((c : Thread nD τ).loc main_arg1) := rfl

/-- THE FRAME: every weakly fair execution terminates, nothing faulting, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m c),
     (h c _ (mem_uc main_arg1 (by decide))).trans (W3_main_arg1 m c)⟩) (run m ρ)

end Cert.Kernel.Whole

end
-- ==== Proof.CentroidBody.lean ====
import proofs.«175471_j7017976562073_1_alg».proof.Proof.Gen.KernelIdeal.Launch
import proofs.«175471_j7017976562073_1_alg».proof.Proof.Gen.KernelIdeal.Skeleton
import proofs.«175471_j7017976562073_1_alg».proof.Proof.Gen.KernelIdeal.Points
import proofs.«175471_j7017976562073_1_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Centroid

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.WholeStore

/-! # The centroid kernel's body, point by point

The body keeps two accumulators between grid points: `acc` (64 x 256, the weighted sums) and `cnt` (1 x 64, the weights'
totals). At the first point it zeroes both and then adds this block's contribution; at every later point it adds; at the
last point it also writes `acc / cnt` (the centroids) to its output block. Every store and load goes through the whole of
its buffer, so what a buffer reads after the body is the last value stored into it. -/

/-- The first grid point: the accumulators are reset before they are added to. -/
abbrev isFirst (i : grid0.Coords) : Prop := (Scalar.cmpi .ne (Scalar.extui (Scalar.cmpi .eq (BitVec.ofNat 32 (i 0).val) 0#32)) 0#32) = 1#1
/-- The last grid point: the centroids are written out. -/
abbrev isLast (i : grid0.Coords) : Prop := k0_cond2 i = 1#1

/-- A rank-2 offset at the origin. -/
theorem origin2 : (![0, 0] : Fin 2 → ℕ) = fun _ => 0 := by funext a; fin_cases a <;> rfl

/-- The accumulator after a point that found it at `a`: `a` plus the block's weighted sums. -/
abbrev accStep (mb : Vec F S2048x64 .f32) (xb : Vec F S2048x256 .f32) (a : Vec F S64x256 .f32) : Vec F S64x256 .f32 := k0_pay3 mb xb a
/-- The weight totals after a point that found them at `n`: `n` plus the block's column sums. -/
abbrev cntStep (mb : Vec F S2048x64 .f32) (n : Vec F S1x64 .f32) : Vec F S1x64 .f32 := k0_pay4 mb n
/-- The centroids: the accumulator divided, row by row, by the weight totals. -/
abbrev centroids (n : Vec F S1x64 .f32) (a : Vec F S64x256 .f32) : Vec F S64x256 .f32 := k0_pay5 n a

set_option maxHeartbeats 2000000 in
/-- At the first point: from any scratch contents, the accumulators end at one step from zero; the output block is untouched. -/
theorem run_first (c : Dev nD) (i : grid0.Coords)
    (arg1 : Memref sig .tc .vmem S2048x64 .f32) (harg1 : arg1.IsWhole) (arg2 : Memref sig .tc .vmem S2048x256 .f32) (harg2 : arg2.IsWhole)
    (arg3 : Memref sig .tc .vmem S64x256 .f32) (harg3 : arg3.IsWhole) (arg4 : Memref sig .tc .vmem S64x256 .f32) (harg4 : arg4.IsWhole)
    (arg5 : Memref sig .tc .vmem S1x64 .f32) (harg5 : arg5.IsWhole) (hf : isFirst i) (hl : ¬isLast i)
    (mb : Vec F S2048x64 .f32) (xb : Vec F S2048x256 .f32) (o : Vec F S64x256 .f32) (E : Set ℕ) (K : PUnit → sProp 𝕄) :
    iprop(owns (c : Thread nD τ) arg1 fullShare mb ∗ owns (c : Thread nD τ) arg2 fullShare xb ∗ owns (c : Thread nD τ) arg3 fullShare o
        ∗ (∃ d, owns (c : Thread nD τ) arg4 fullShare d) ∗ (∃ d, owns (c : Thread nD τ) arg5 fullShare d)
        ∗ (iprop(owns (c : Thread nD τ) arg1 fullShare mb ∗ owns (c : Thread nD τ) arg2 fullShare xb ∗ owns (c : Thread nD τ) arg3 fullShare o
            ∗ owns (c : Thread nD τ) arg4 fullShare (accStep mb xb (k0_pay1 (F := F)))
            ∗ owns (c : Thread nD τ) arg5 fullShare (cntStep mb (k0_pay2 (F := F)))) -∗ K ⟨⟩))
      ⊢ wp frame (wpE (defs₀ (F := F)) Variants.none c none) E (cc0__centroid_kernel i arg1 harg1 arg2 harg2 arg3 harg3 arg4 harg4 arg5 harg5) K := by
  simp only [cc0__centroid_kernel_eq_skeleton]; unfold cc0__centroid_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg1.eq_unread hf0; obtain rfl := harg2.eq_unread hf1; obtain rfl := harg3.eq_unread hf2
  sl_exec (disch := first | exact hf | exact hl)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_words
    rw [read_writes_cons _ _ origin2]
    simp only [readAt_whole (S := S2048x64) _ _ origin2, readAt_whole (S := S2048x256) _ _ origin2, readAt_whole (S := S64x256) _ _ origin2, readAt_whole (S := S1x64) _ _ origin2, readCov_cons (S := S64x256) _ origin2, readCov_cons (S := S1x64) _ origin2, harg1.read_unread, harg2.read_unread, harg4.read_unread, harg5.read_unread]
  · iexists _; isplitr
    swap; · iexact H4
    ipureintro
    sl_unfold_words
    rw [read_writes_cons _ _ origin2]
    simp only [readAt_whole (S := S2048x64) _ _ origin2, readAt_whole (S := S2048x256) _ _ origin2, readAt_whole (S := S64x256) _ _ origin2, readAt_whole (S := S1x64) _ _ origin2, readCov_cons (S := S64x256) _ origin2, readCov_cons (S := S1x64) _ origin2, harg1.read_unread, harg2.read_unread, harg4.read_unread, harg5.read_unread]

set_option maxHeartbeats 2000000 in
/-- At a point that is neither first nor last: the accumulators, found at `a` and `n`, end one step on; the output block is untouched. -/
theorem run_mid (c : Dev nD) (i : grid0.Coords)
    (arg1 : Memref sig .tc .vmem S2048x64 .f32) (harg1 : arg1.IsWhole) (arg2 : Memref sig .tc .vmem S2048x256 .f32) (harg2 : arg2.IsWhole)
    (arg3 : Memref sig .tc .vmem S64x256 .f32) (harg3 : arg3.IsWhole) (arg4 : Memref sig .tc .vmem S64x256 .f32) (harg4 : arg4.IsWhole)
    (arg5 : Memref sig .tc .vmem S1x64 .f32) (harg5 : arg5.IsWhole) (hf : ¬isFirst i) (hl : ¬isLast i)
    (mb : Vec F S2048x64 .f32) (xb : Vec F S2048x256 .f32) (o : Vec F S64x256 .f32) (a : Vec F S64x256 .f32) (n : Vec F S1x64 .f32) (E : Set ℕ) (K : PUnit → sProp 𝕄) :
    iprop(owns (c : Thread nD τ) arg1 fullShare mb ∗ owns (c : Thread nD τ) arg2 fullShare xb ∗ owns (c : Thread nD τ) arg3 fullShare o
        ∗ owns (c : Thread nD τ) arg4 fullShare a ∗ owns (c : Thread nD τ) arg5 fullShare n
        ∗ (iprop(owns (c : Thread nD τ) arg1 fullShare mb ∗ owns (c : Thread nD τ) arg2 fullShare xb ∗ owns (c : Thread nD τ) arg3 fullShare o
            ∗ owns (c : Thread nD τ) arg4 fullShare (accStep mb xb a)
            ∗ owns (c : Thread nD τ) arg5 fullShare (cntStep mb n)) -∗ K ⟨⟩))
      ⊢ wp frame (wpE (defs₀ (F := F)) Variants.none c none) E (cc0__centroid_kernel i arg1 harg1 arg2 harg2 arg3 harg3 arg4 harg4 arg5 harg5) K := by
  simp only [cc0__centroid_kernel_eq_skeleton]; unfold cc0__centroid_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hf | exact hl)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_words
    rw [read_writes_cons _ _ origin2]
    simp only [readAt_whole (S := S2048x64) _ _ origin2, readAt_whole (S := S2048x256) _ _ origin2, readAt_whole (S := S64x256) _ _ origin2, readAt_whole (S := S1x64) _ _ origin2, readCov_cons (S := S64x256) _ origin2, readCov_cons (S := S1x64) _ origin2, harg1.read_unread, harg2.read_unread, harg4.read_unread, harg5.read_unread]
  · iexists _; isplitr
    swap; · iexact H4
    ipureintro
    sl_unfold_words
    rw [read_writes_cons _ _ origin2]
    simp only [readAt_whole (S := S2048x64) _ _ origin2, readAt_whole (S := S2048x256) _ _ origin2, readAt_whole (S := S64x256) _ _ origin2, readAt_whole (S := S1x64) _ _ origin2, readCov_cons (S := S64x256) _ origin2, readCov_cons (S := S1x64) _ origin2, harg1.read_unread, harg2.read_unread, harg4.read_unread, harg5.read_unread]

set_option maxHeartbeats 2000000 in
/-- At the last point: the accumulators end one step on, and the output block holds the centroids of those final accumulators. -/
theorem run_last (c : Dev nD) (i : grid0.Coords)
    (arg1 : Memref sig .tc .vmem S2048x64 .f32) (harg1 : arg1.IsWhole) (arg2 : Memref sig .tc .vmem S2048x256 .f32) (harg2 : arg2.IsWhole)
    (arg3 : Memref sig .tc .vmem S64x256 .f32) (harg3 : arg3.IsWhole) (arg4 : Memref sig .tc .vmem S64x256 .f32) (harg4 : arg4.IsWhole)
    (arg5 : Memref sig .tc .vmem S1x64 .f32) (harg5 : arg5.IsWhole) (hf : ¬isFirst i) (hl : isLast i)
    (mb : Vec F S2048x64 .f32) (xb : Vec F S2048x256 .f32) (a : Vec F S64x256 .f32) (n : Vec F S1x64 .f32) (E : Set ℕ) (K : PUnit → sProp 𝕄) :
    iprop(owns (c : Thread nD τ) arg1 fullShare mb ∗ owns (c : Thread nD τ) arg2 fullShare xb ∗ (∃ d, owns (c : Thread nD τ) arg3 fullShare d)
        ∗ owns (c : Thread nD τ) arg4 fullShare a ∗ owns (c : Thread nD τ) arg5 fullShare n
        ∗ (iprop(owns (c : Thread nD τ) arg1 fullShare mb ∗ owns (c : Thread nD τ) arg2 fullShare xb ∗ owns (c : Thread nD τ) arg3 fullShare (centroids (cntStep mb n) (accStep mb xb a))
            ∗ owns (c : Thread nD τ) arg4 fullShare (accStep mb xb a)
            ∗ owns (c : Thread nD τ) arg5 fullShare (cntStep mb n)) -∗ K ⟨⟩))
      ⊢ wp frame (wpE (defs₀ (F := F)) Variants.none c none) E (cc0__centroid_kernel i arg1 harg1 arg2 harg2 arg3 harg3 arg4 harg4 arg5 harg5) K := by
  simp only [cc0__centroid_kernel_eq_skeleton]; unfold cc0__centroid_kernel_skel
  unfold owns
  iintro ⟨⟨%f0, %hf0, H0⟩, ⟨%f1, %hf1, H1⟩, ⟨%d2, %f2, -, H2⟩, ⟨%f3, %hf3, H3⟩, ⟨%f4, %hf4, H4⟩, Hk⟩
  obtain rfl := harg1.eq_unread hf0; obtain rfl := harg2.eq_unread hf1
  obtain rfl := harg4.eq_unread hf3; obtain rfl := harg5.eq_unread hf4
  sl_exec (disch := first | exact hf | exact hl)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [read_writes_cons _ _ origin2]
    simp only [readAt_whole (S := S2048x64) _ _ origin2, readAt_whole (S := S2048x256) _ _ origin2, readAt_whole (S := S64x256) _ _ origin2, readAt_whole (S := S1x64) _ _ origin2, readCov_cons (S := S64x256) _ origin2, readCov_cons (S := S1x64) _ origin2, harg1.read_unread, harg2.read_unread, harg4.read_unread, harg5.read_unread]
  isplitl [H3]
  · iexists _; isplitr
    swap; · iexact H3
    ipureintro
    sl_unfold_words
    rw [read_writes_cons _ _ origin2]
    simp only [readAt_whole (S := S2048x64) _ _ origin2, readAt_whole (S := S2048x256) _ _ origin2, readAt_whole (S := S64x256) _ _ origin2, readAt_whole (S := S1x64) _ _ origin2, readCov_cons (S := S64x256) _ origin2, readCov_cons (S := S1x64) _ origin2, harg1.read_unread, harg2.read_unread, harg4.read_unread, harg5.read_unread]
  · iexists _; isplitr
    swap; · iexact H4
    ipureintro
    sl_unfold_words
    rw [read_writes_cons _ _ origin2]
    simp only [readAt_whole (S := S2048x64) _ _ origin2, readAt_whole (S := S2048x256) _ _ origin2, readAt_whole (S := S64x256) _ _ origin2, readAt_whole (S := S1x64) _ _ origin2, readCov_cons (S := S64x256) _ origin2, readCov_cons (S := S1x64) _ origin2, harg1.read_unread, harg2.read_unread, harg4.read_unread, harg5.read_unread]

end Cert.KernelIdeal.Centroid

end
-- ==== Proof.CentroidFrame.lean ====
import proofs.«175471_j7017976562073_1_alg».proof.Proof.Gen.KernelIdeal.Launch
import proofs.«175471_j7017976562073_1_alg».proof.Proof.Gen.KernelIdeal.Skeleton
import proofs.«175471_j7017976562073_1_alg».proof.Proof.Gen.KernelIdeal.Points
import proofs.«175471_j7017976562073_1_alg».proof.Proof.CentroidBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Centroid

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The centroid region: what its windows and scratch hold at every grid point

The region runs the body at the 8 points of its grid. Its two input windows are fetched at every point: point `t` sees
rows `2048 t .. 2048 t + 2047` of the weights and of the points. The accumulators live in two scratch buffers that the
pipeline never touches, so after point `t` they hold the sums over the blocks `0 .. t`. The output window is idle until the
last point, where it receives the centroids and is written back. All of it is stated at a parameter `V`: the contents of
the core's buffers when the region is entered. -/

variable (V : (c : Dev nD) → (b : Ref sig .tc) → Buf (Elt F) ((c : Thread nD τ).loc b))

/-! ## Which grid points are first and last, and where the output window is idle -/

theorem first_iff : ∀ t : Fin cfg0.N, isFirst (grid0.coords t) ↔ t.val = 0 :=
  (by decide +kernel : ∀ t : Fin grid0.N, isFirst (grid0.coords t) ↔ t.val = 0)
theorem last_iff : ∀ t : Fin cfg0.N, isLast (grid0.coords t) ↔ t.val = 7 :=
  (by decide +kernel : ∀ t : Fin grid0.N, isLast (grid0.coords t) ↔ t.val = 7)
theorem live_m : ∀ t : Fin cfg0.N, cfg0.idle 0 (grid0.coords t) = false := by decide +kernel
theorem live_x : ∀ t : Fin cfg0.N, cfg0.idle 1 (grid0.coords t) = false := by decide +kernel
theorem idle_out : ∀ t : Fin cfg0.N, ¬isLast (grid0.coords t) → cfg0.idle 2 (grid0.coords t) = true := by decide +kernel
theorem noflush_out : ∀ t : Fin cfg0.N, ¬isLast (grid0.coords t) → (cfg0.win 2).flush t = false := by decide +kernel
theorem live_out : ∀ t : Fin cfg0.N, isLast (grid0.coords t) → cfg0.idle 2 (grid0.coords t) = false := by decide +kernel

/-! ## The input blocks -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of weights at point `t`: 2048 rows of 64. -/
abbrev mblk (c : Dev nD) (t : Fin cfg0.N) : Vec F S2048x64 .f32 := blk0 V c 0 t
/-- The block of points at point `t`: 2048 rows of 256. -/
abbrev xblk (c : Dev nD) (t : Fin cfg0.N) : Vec F S2048x256 .f32 := blk0 V c 1 t

/-! ## The accumulators after each point -/

/-- The weighted sums after point `n`: one step from zero at the first point, one step from the point before afterwards. -/
def accAt (c : Dev nD) : (n : ℕ) → n < cfg0.N → Vec F S64x256 .f32
  | 0, h => accStep (mblk V c ⟨0, h⟩) (xblk V c ⟨0, h⟩) (k0_pay1 (F := F))
  | n + 1, h => accStep (mblk V c ⟨n + 1, h⟩) (xblk V c ⟨n + 1, h⟩) (accAt c n (Nat.lt_of_succ_lt h))

/-- The weight totals after point `n`. -/
def cntAt (c : Dev nD) : (n : ℕ) → n < cfg0.N → Vec F S1x64 .f32
  | 0, h => cntStep (mblk V c ⟨0, h⟩) (k0_pay2 (F := F))
  | n + 1, h => cntStep (mblk V c ⟨n + 1, h⟩) (cntAt c n (Nat.lt_of_succ_lt h))

theorem accAt_first (c : Dev nD) (t : Fin cfg0.N) (h0 : t.val = 0) :
    accAt V c t.val t.isLt = accStep (mblk V c t) (xblk V c t) (k0_pay1 (F := F)) := by
  obtain ⟨n, hn⟩ := t; cases n with
  | zero => rfl
  | succ n => exact absurd h0 (Nat.succ_ne_zero n)
theorem cntAt_first (c : Dev nD) (t : Fin cfg0.N) (h0 : t.val = 0) :
    cntAt V c t.val t.isLt = cntStep (mblk V c t) (k0_pay2 (F := F)) := by
  obtain ⟨n, hn⟩ := t; cases n with
  | zero => rfl
  | succ n => exact absurd h0 (Nat.succ_ne_zero n)
theorem accAt_later (c : Dev nD) (t : Fin cfg0.N) (h0 : t.val ≠ 0) :
    accAt V c t.val t.isLt = accStep (mblk V c t) (xblk V c t) (accAt V c (t.val - 1) (Nat.lt_of_le_of_lt (Nat.sub_le _ _) t.isLt)) := by
  obtain ⟨n, hn⟩ := t; cases n with
  | zero => exact absurd rfl h0
  | succ n => rfl
theorem cntAt_later (c : Dev nD) (t : Fin cfg0.N) (h0 : t.val ≠ 0) :
    cntAt V c t.val t.isLt = cntStep (mblk V c t) (cntAt V c (t.val - 1) (Nat.lt_of_le_of_lt (Nat.sub_le _ _) t.isLt)) := by
  obtain ⟨n, hn⟩ := t; cases n with
  | zero => exact absurd rfl h0
  | succ n => rfl

/-! ## The region's invariant -/

/-- The two scratch operands, whole scoped buffers of the kernel's own. -/
abbrev scA : Memref sig .tc .vmem S64x256 .f32 := Memref.whole cc0_scratch0
abbrev scN : Memref sig .tc .vmem S1x64 .f32 := Memref.whole cc0_scratch1

/-- The core's other scoped buffers (the staging buffers of the second region), which this region never touches: each
    whole, at some contents. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- What the region is entered with beside its windows: both scratch buffers at anything, the other scoped buffers, the
    generator register. -/
theorem phiA_eq (c : Dev nD) :
    (Pipeline.ΦA spec0 c : sProp 𝕄)
      = iprop(iprop((∃ d, owns (c : Thread nD τ) scA fullShare d) ∗ (∃ d, owns (c : Thread nD τ) scN fullShare d) ∗ others (F := F) c) ∗ (∃ r, prngReg c r)) := by
  unfold Pipeline.ΦA others; rw [scopedRest0_eq]; simp only [scA, scN, owns_whole]; rfl

/-- The invariant before position `n`: at the start, the scratch at anything; afterwards, the scratch at the accumulators
    the point before left. -/
def inv (c : Dev nD) : (n : ℕ) → n ≤ cfg0.N → sProp 𝕄
  | 0, _ => Pipeline.ΦA spec0 c
  | n + 1, hn => iprop(iprop(owns (c : Thread nD τ) scA fullShare (accAt V c n hn) ∗ owns (c : Thread nD τ) scN fullShare (cntAt V c n hn) ∗ others (F := F) c) ∗ (∃ r, prngReg c r))

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop(iprop(owns (c : Thread nD τ) scA fullShare (accAt V c n hn) ∗ owns (c : Thread nD τ) scN fullShare (cntAt V c n hn) ∗ others (F := F) c) ∗ (∃ r, prngReg c r)) := rfl
theorem inv_pos (c : Dev nD) (n : ℕ) (h : n ≤ cfg0.N) (hz : n ≠ 0) :
    inv V c n h = iprop(iprop(owns (c : Thread nD τ) scA fullShare (accAt V c (n - 1) (by omega)) ∗ owns (c : Thread nD τ) scN fullShare (cntAt V c (n - 1) (by omega)) ∗ others (F := F) c) ∗ (∃ r, prngReg c r)) := by
  cases n with
  | zero => exact absurd rfl hz
  | succ n => rfl

/-! ## The proof data -/

/-- The region's proof data on core `c`: the arrays as the region finds them; after the body each input buffer holds its
    block, and the output buffer (consulted at the last point only) the centroids of the accumulators so far; the invariant
    above; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => centroids (cntAt V c t.val t.isLt) (accAt V c t.val t.isLt)
  Φ t := inv V c t.val (Nat.le_of_lt_succ t.isLt)
  q _ := fullShare
  owed _ := 0

theorem A_eq (c : Dev nD) (w : Fin cfg0.W) : (dat0 V c).A w = V c (Pipeline.arrRef spec0 w) := by dsimp only [dat0]
theorem after_m (c : Dev nD) (t : Fin cfg0.N) : (dat0 V c).after 0 t = blk0 V c 0 t := by dsimp only [dat0]
theorem after_x (c : Dev nD) (t : Fin cfg0.N) : (dat0 V c).after 1 t = blk0 V c 1 t := by dsimp only [dat0]
theorem after_out (c : Dev nD) (t : Fin cfg0.N) :
    (dat0 V c).after 2 t = centroids (cntAt V c t.val t.isLt) (accAt V c t.val t.isLt) := by dsimp only [dat0]

/-- The weights' staging buffer holds the point's block when the body is called. -/
theorem before_m (c : Dev nD) (t : Fin cfg0.N) (d) : (dat0 V c).before 0 t d = mblk V c t :=
  ((dat0 V c).before_in_eq_fetched 0 rfl (fun _ => rfl) (fun _ _ _ => rfl)
    (fun t => by rw [after_m]; unfold Dat.blockOf blk0; rw [A_eq]; try rfl) t d).trans
    (by unfold Dat.fetched Dat.blockOf; rw [A_eq]; rfl)
/-- So does the points'. -/
theorem before_x (c : Dev nD) (t : Fin cfg0.N) (d) : (dat0 V c).before 1 t d = xblk V c t :=
  ((dat0 V c).before_in_eq_fetched 1 rfl (fun _ => rfl) (fun _ _ _ => rfl)
    (fun t => by rw [after_x]; unfold Dat.blockOf blk0; rw [A_eq]; try rfl) t d).trans
    (by unfold Dat.fetched Dat.blockOf; rw [A_eq]; rfl)

theorem phi_before (c : Dev nD) (t : Fin cfg0.N) : (dat0 V c).Φ t.castSucc = inv V c t.val (Nat.le_of_lt t.isLt) := by
  dsimp only [dat0]; simp only [Fin.coe_castSucc]
theorem phi_after (c : Dev nD) (t : Fin cfg0.N) :
    (dat0 V c).Φ t.succ = iprop(iprop(owns (c : Thread nD τ) scA fullShare (accAt V c t.val t.isLt) ∗ owns (c : Thread nD τ) scN fullShare (cntAt V c t.val t.isLt) ∗ others (F := F) c) ∗ (∃ r, prngReg c r)) := rfl
theorem leaves_m (c : Dev nD) (t : Fin cfg0.N) : (dat0 V c).leavesExact 0 t = owns (c : Thread nD τ) (st0_0 t) fullShare (mblk V c t) := by
  unfold Dat.leavesExact; rw [live_m t, after_m]
theorem leaves_x (c : Dev nD) (t : Fin cfg0.N) : (dat0 V c).leavesExact 1 t = owns (c : Thread nD τ) (st0_1 t) fullShare (xblk V c t) := by
  unfold Dat.leavesExact; rw [live_x t, after_x]

/-! ## The body obligation -/

set_option maxHeartbeats 4000000 in
/-- The body at any point: the input buffers hold the point's blocks; the invariant hands over the scratch (at anything at
    the first point, at the accumulators so far afterwards) and takes it back one step on; the output buffer is passed
    through untouched except at the last point, where it receives the centroids. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ (dat0 V c).leavesExact 0 t ∗ (dat0 V c).leavesExact 1 t ∗ (dat0 V c).leavesExact 2 t)) := by
  unfold bodyAt0
  simp only [before_m, before_x]
  rw [show (dat0 V c).owesAt () t.succ = (dat0 V c).owesAt () t.castSucc from rfl, phi_after, leaves_m, leaves_x, phi_before]
  have hN : t.val < 8 := lt_of_lt_of_eq t.isLt (show cfg0.N = 8 from N_0)
  by_cases h0 : t.val = 0
  · have hf : isFirst (grid0.coords t) := (first_iff t).mpr h0
    have hl : ¬isLast (grid0.coords t) := fun h => by have := (last_iff t).mp h; omega
    rw [inv_zero V c _ _ h0, phiA_eq, Dat.leavesExact_idle (dat0 V c) 2 t (idle_out t hl) (noflush_out t hl),
      accAt_first V c t h0, cntAt_first V c t h0]
    iintro ⟨⟨⟨HA, HN, HR⟩, Hg⟩, Ho, ⟨%d0, H0⟩, ⟨%d1, H1⟩, ⟨%d2, H2⟩⟩
    iapply (run_first c (grid0.coords t) _ _ _ _ _ _ _ _ _ _ hf hl (mblk V c t) (xblk V c t) _ Set.univ _)
    isplitl [H0]; · iexact H0
    isplitl [H1]; · iexact H1
    isplitl [H2]; · iexact H2
    isplitl [HA]; · iexact HA
    isplitl [HN]; · iexact HN
    iintro ⟨H0, H1, H2, HA, HN⟩
    isplitl [HA HN HR Hg]
    · isplitr [Hg]
      · isplitl [HA]; · iexact HA
        isplitl [HN]; · iexact HN
        iexact HR
      iexact Hg
    isplitl [Ho]; · iexact Ho
    isplitl [H0]; · iexact H0
    isplitl [H1]; · iexact H1
    iexists _; iexact H2
  · have hf : ¬isFirst (grid0.coords t) := fun h => h0 ((first_iff t).mp h)
    rw [inv_pos V c _ _ h0, accAt_later V c t h0, cntAt_later V c t h0]
    by_cases h7 : t.val = 7
    · have hl : isLast (grid0.coords t) := (last_iff t).mpr h7
      rw [show (dat0 V c).leavesExact 2 t = owns (c : Thread nD τ) (st0_2 t) fullShare ((dat0 V c).after 2 t) from by
        unfold Dat.leavesExact; rw [live_out t hl], after_out, accAt_later V c t h0, cntAt_later V c t h0]
      iintro ⟨⟨⟨HA, HN, HR⟩, Hg⟩, Ho, ⟨%d0, H0⟩, ⟨%d1, H1⟩, ⟨%d2, H2⟩⟩
      iapply (run_last c (grid0.coords t) _ _ _ _ _ _ _ _ _ _ hf hl (mblk V c t) (xblk V c t) _ _ Set.univ _)
      isplitl [H0]; · iexact H0
      isplitl [H1]; · iexact H1
      isplitl [H2]; · iexists _; iexact H2
      isplitl [HA]; · iexact HA
      isplitl [HN]; · iexact HN
      iintro ⟨H0, H1, H2, HA, HN⟩
      isplitl [HA HN HR Hg]
      · isplitr [Hg]
        · isplitl [HA]; · iexact HA
          isplitl [HN]; · iexact HN
          iexact HR
        iexact Hg
      isplitl [Ho]; · iexact Ho
      isplitl [H0]; · iexact H0
      isplitl [H1]; · iexact H1
      iexact H2
    · have hl : ¬isLast (grid0.coords t) := fun h => h7 ((last_iff t).mp h)
      rw [Dat.leavesExact_idle (dat0 V c) 2 t (idle_out t hl) (noflush_out t hl)]
      iintro ⟨⟨⟨HA, HN, HR⟩, Hg⟩, Ho, ⟨%d0, H0⟩, ⟨%d1, H1⟩, ⟨%d2, H2⟩⟩
      iapply (run_mid c (grid0.coords t) _ _ _ _ _ _ _ _ _ _ hf hl (mblk V c t) (xblk V c t) _ _ _ Set.univ _)
      isplitl [H0]; · iexact H0
      isplitl [H1]; · iexact H1
      isplitl [H2]; · iexact H2
      isplitl [HA]; · iexact HA
      isplitl [HN]; · iexact HN
      iintro ⟨H0, H1, H2, HA, HN⟩
      isplitl [HA HN HR Hg]
      · isplitr [Hg]
        · isplitl [HA]; · iexact HA
          isplitl [HN]; · iexact HN
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem phi_in (c : Dev nD) : Pipeline.ΦA spec0 c ⊢ (dat0 V c).Φ 0 := by
  rw [show (dat0 V c).Φ 0 = inv V c 0 (Nat.zero_le _) from rfl, inv_zero V c 0 _ rfl]

/-- After the last point the invariant gives the same back, the accumulators' contents forgotten. -/
theorem phi_out (c : Dev nD) : (dat0 V c).Φ (Fin.last cfg0.N) ⊢ Pipeline.ΦA spec0 c := by
  rw [show (dat0 V c).Φ (Fin.last cfg0.N) = inv V c (Fin.last cfg0.N).val (Nat.le_of_lt_succ (Fin.last cfg0.N).isLt) from rfl,
    inv_pos V c _ _ (by rw [Fin.val_last]; have : cfg0.N = 8 := N_0; omega), phiA_eq]
  iintro ⟨⟨HA, HN, HR⟩, Hg⟩
  isplitl [HA HN HR]
  · isplitl [HA]; · iexists _; iexact HA
    isplitl [HN]; · iexists _; iexact HN
    iexact HR
  iexact Hg

end Cert.KernelIdeal.Centroid

end
-- ==== Proof.AssignBody.lean ====
import proofs.«175471_j7017976562073_1_alg».proof.Proof.Gen.KernelIdeal.Launch
import proofs.«175471_j7017976562073_1_alg».proof.Proof.Gen.KernelIdeal.Skeleton
import proofs.«175471_j7017976562073_1_alg».proof.Proof.Gen.KernelIdeal.Points
import proofs.«175471_j7017976562073_1_alg».proof.Proof.LibWholeStore
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Assign

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.WholeStore Idealize.ShloMosaic.ValueIdx

/-! # The assignment kernel's body

For a block of 2048 points `xb` and the 64 centroids `mub`, the body writes, centroid by centroid, the row of L1 distances
of the block's points to that centroid into its output block (64 rows of 2048), reads the block back whole, and replaces
it by the Student-t kernel of the distances normalised over the 64 centroids. -/

/-- A rank-2 offset at the origin. -/
theorem origin2 : (![0, 0] : Fin 2 → ℕ) = fun _ => 0 := by funext a; fin_cases a <;> rfl

/-- Row `r` of the centroid block, as a 1 x 256 array. -/
def muRow (mub : Vec F S64x256 .f32) (r : Fin 64) : Vec F S1x256 .f32 := fun z => mub (ix2 r (z 1))

section Loads
variable {sg : RefSig} {κ : Kind} {sp : Space}

/-- A load of the whole points block reads the block. -/
theorem load_whole {S : Shape} (a : Memref sg κ sp S .f32) (ha : a.IsWhole) (X : S.Idx → Elt F .f32)
    {off : Fin S.rank → Nat} (h : off = fun _ => 0) (inb : ∀ b, off b + S.size b ≤ S.size b) :
    View.readAt (Elt F) a.view (Rect.unit off S.size inb).toLoadRect (ha.unread X) = X := by
  rw [readAt_whole (S := S) _ _ h, ha.read_unread]

/-- A load of row `r` of the centroid block reads that row. -/
theorem load_row (a : Memref sg κ sp S64x256 .f32) (ha : a.IsWhole) (mub : Vec F S64x256 .f32) (r : ℕ) (hr : r < 64)
    (inb : ∀ b, (![r, 0] : Fin 2 → Nat) b + S1x256.size b ≤ S64x256.size b) :
    View.readAt (Elt F) a.view (Rect.unit (s := S64x256) ![r, 0] S1x256.size inb).toLoadRect (ha.unread mub) = muRow mub ⟨r, hr⟩ := by
  rw [View.readAt_eq_ld, ha.read_unread]
  funext z
  show mub _ = mub _
  congr 1
  funext b
  match b with
  | ⟨0, _⟩ => apply Fin.ext; show r + 1 * (z 0).val = r; have := (z 0).isLt; simp at this; omega
  | ⟨1, _⟩ => apply Fin.ext; show 0 + 1 * (z 1).val = (z 1).val; omega

end Loads

/-- One row of distances: for each of the block's 2048 points, the sum over the 256 coordinates of `|x - m|`. -/
def rowDist (xb : Vec F S2048x256 .f32) (mr : Vec F S1x256 .f32) : FVec F S1x2048 .f32 := k1_pay3 xb mr

/-- The 64 x 2048 block of distances: row `r` is the row of distances to centroid `r`. -/
def distBlk (xb : Vec F S2048x256 .f32) (mub : Vec F S64x256 .f32) : Vec F S64x2048 .f32 :=
  fun y => rowDist xb (muRow mub (y 0)) (ix2 0 (y 1))

section Pieces
variable {sg : RefSig} {κ : Kind} {sp : Space}

/-- A load through the whole shape after any stores reads what the stores leave. -/
theorem readCov_whole {S : Shape} {e : EltTy} {Val : EltTy → Type} [∀ e, Nonempty (Val e)] (v : View sg κ sp S e)
    (L : List (View.Piece Val S e)) {off : Fin S.rank → Nat} (h : off = fun _ => 0) (inb : ∀ b, off b + S.size b ≤ S.size b) :
    v.readCov L (Rect.unit off S.size inb).toLoadRect = View.canon L := by
  rw [View.readCov_eq_canon']; exact View.ld_unit_zero h inb (View.canon L)

/-- No piece: nothing to check. -/
theorem pieces_nil {S : Shape} {e : EltTy} {Val : EltTy → Type} (G : S.Idx → Val e) :
    ∀ p ∈ ([] : List (View.Piece Val S e)), ∀ x : p.1.shape.Idx, p.2 x = G (p.1.emb x) :=
  fun _ h => absurd h List.not_mem_nil

/-- One more piece that is a block of `G`. -/
theorem pieces_cons {S : Shape} {e : EltTy} {Val : EltTy → Type} (G : S.Idx → Val e) (r : Rect S) (w : r.shape.Idx → Val e)
    (L : List (View.Piece Val S e)) (hp : ∀ x, w x = G (r.emb x))
    (hL : ∀ p ∈ L, ∀ x : p.1.shape.Idx, p.2 x = G (p.1.emb x)) :
    ∀ p ∈ ((⟨r, w⟩ : View.Piece Val S e) :: L), ∀ x : p.1.shape.Idx, p.2 x = G (p.1.emb x) := by
  intro p hm
  rcases List.mem_cons.mp hm with rfl | hm
  · exact hp
  · exact hL p hm

/-- The row of distances to centroid `r`, computed from the loaded points block and the loaded row `r` of the centroid block
    and stored through row `r` of the output block, is the block of `distBlk` that row names. -/
theorem piece_row (a1 : Memref sg κ sp S2048x256 .f32) (h1 : a1.IsWhole) (a2 : Memref sg κ sp S64x256 .f32) (h2 : a2.IsWhole)
    (xb : Vec F S2048x256 .f32) (mub : Vec F S64x256 .f32) (r : ℕ) (hr : r < 64)
    (inb1 : ∀ b, (![0, 0] : Fin 2 → Nat) b + S2048x256.size b ≤ S2048x256.size b)
    (inb2 : ∀ b, (![r, 0] : Fin 2 → Nat) b + S1x256.size b ≤ S64x256.size b)
    (inb3 : ∀ b, (![r, 0] : Fin 2 → Nat) b + S1x2048.size b ≤ S64x2048.size b)
    (w : FVec F S1x2048 .f32)
    (hw : w = rowDist (View.readAt (Elt F) a1.view (Rect.unit (s := S2048x256) ![0, 0] S2048x256.size inb1).toLoadRect (h1.unread xb))
                (View.readAt (Elt F) a2.view (Rect.unit (s := S64x256) ![r, 0] S1x256.size inb2).toLoadRect (h2.unread mub))) :
    ∀ x : (Rect.unit (s := S64x2048) ![r, 0] S1x2048.size inb3).shape.Idx,
      w x = distBlk xb mub ((Rect.unit (s := S64x2048) ![r, 0] S1x2048.size inb3).emb x) := by
  subst hw
  rw [load_whole a1 h1 xb origin2, load_row a2 h2 mub r hr]
  intro x
  unfold distBlk
  have h0 : (Rect.unit (s := S64x2048) ![r, 0] S1x2048.size inb3).emb x 0 = (⟨r, hr⟩ : Fin 64) :=
    Fin.ext (by show r + 1 * (x 0).val = r; have := (x 0).isLt; simp at this; omega)
  have hx : x = ix2 (0 : Fin 1) ((Rect.unit (s := S64x2048) ![r, 0] S1x2048.size inb3).emb x 1) := by
    funext b
    match b with
    | ⟨0, _⟩ => apply Fin.ext; show (x 0).val = 0; have := (x 0).isLt; simp at this; omega
    | ⟨1, _⟩ => apply Fin.ext; show (x 1).val = 0 + 1 * (x 1).val; omega
  rw [h0]
  exact congrArg _ hx

end Pieces

/-- What the body leaves in its output block: `q / (sum over the 64 rows of q)` with `q = 1 / (1 + distance)`. -/
def assignOut (xb : Vec F S2048x256 .f32) (mub : Vec F S64x256 .f32) : Vec F S64x2048 .f32 := k1_pay2 (distBlk xb mub)

set_option maxHeartbeats 8000000 in
/-- The body on whole staging buffers: the inputs are left as they were, and the output block, whatever it held, ends at
    `assignOut` of the two input blocks. -/
theorem run_assign (c : Dev nD) (i : grid1.Coords)
    (arg1 : Memref sig .tc .vmem S2048x256 .f32) (harg1 : arg1.IsWhole) (arg2 : Memref sig .tc .vmem S64x256 .f32) (harg2 : arg2.IsWhole)
    (arg3 : Memref sig .tc .vmem S64x2048 .f32) (harg3 : arg3.IsWhole)
    (xb : Vec F S2048x256 .f32) (mub : Vec F S64x256 .f32) (E : Set ℕ) (K : PUnit → sProp 𝕄) :
    iprop(owns (c : Thread nD τ) arg1 fullShare xb ∗ owns (c : Thread nD τ) arg2 fullShare mub ∗ (∃ d, owns (c : Thread nD τ) arg3 fullShare d)
        ∗ (iprop(owns (c : Thread nD τ) arg1 fullShare xb ∗ owns (c : Thread nD τ) arg2 fullShare mub
            ∗ owns (c : Thread nD τ) arg3 fullShare (assignOut xb mub)) -∗ K ⟨⟩))
      ⊢ wp frame (wpE (defs₀ (F := F)) Variants.none c none) E (cc1__assign_kernel i arg1 harg1 arg2 harg2 arg3 harg3) K := by
  simp only [cc1__assign_kernel_eq_skeleton]; unfold cc1__assign_kernel_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  sl_unfold_words
  rw [read_writes_cons (S := S64x2048) _ _ origin2]
  unfold assignOut
  refine congrArg k1_pay2 ?_
  rw [readCov_whole _ _ origin2]
  funext y
  refine View.canon_apply_of_pieces (distBlk xb mub) _ ?_ y (View.cover_of_tiledL (s := S64x2048) _ S1x2048.size (by sl_kernel_rfl) y)
  iterate 64 (refine pieces_cons _ _ _ _ (piece_row arg1 harg1 arg2 harg2 xb mub _ (by decide) _ _ _ _ rfl) ?_)
  exact pieces_nil _

end Cert.KernelIdeal.Assign

end
-- ==== Proof.AssignFrame.lean ====
import proofs.«175471_j7017976562073_1_alg».proof.Proof.Gen.KernelIdeal.Launch
import proofs.«175471_j7017976562073_1_alg».proof.Proof.Gen.KernelIdeal.Skeleton
import proofs.«175471_j7017976562073_1_alg».proof.Proof.Gen.KernelIdeal.Points
import proofs.«175471_j7017976562073_1_alg».proof.Proof.AssignBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Assign

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The assignment region: what its windows hold at every grid point

The region runs the body at the 8 points of its grid. Point `t` sees rows `2048 t .. 2048 t + 2047` of the points and,
at every point, the whole 64 x 256 table of centroids (fetched once, at the first point, and left in place); it writes
columns `2048 t .. 2048 t + 2047` of the 64 x 16384 result. Stated at a parameter `V`: the contents of the core's buffers
when the region is entered. -/

variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of points at point `t`: 2048 rows of 256. -/
abbrev xblk (c : Dev nD) (t : Fin cfg1.N) : Vec F S2048x256 .f32 := blk1 V c 0 t
/-- The centroid table as point `t` sees it: 64 rows of 256. -/
abbrev mublk (c : Dev nD) (t : Fin cfg1.N) : Vec F S64x256 .f32 := blk1 V c 1 t

/-- The region's proof data on core `c`: the arrays as the region finds them; after the body each input buffer holds its
    block and the output buffer the normalised kernel of the block's distances; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => assignOut (xblk V c t) (mublk V c t)
  Φ _ := Pipeline.ΦA spec1 c
  q _ := fullShare
  owed _ := 0

theorem A_eq (c : Dev nD) (w : Fin cfg1.W) : (dat1 V c).A w = V c (Pipeline.arrRef spec1 w) := by dsimp only [dat1]
theorem after_x (c : Dev nD) (t : Fin cfg1.N) : (dat1 V c).after 0 t = blk1 V c 0 t := by dsimp only [dat1]
theorem after_mu (c : Dev nD) (t : Fin cfg1.N) : (dat1 V c).after 1 t = blk1 V c 1 t := by dsimp only [dat1]
theorem after_out (c : Dev nD) (t : Fin cfg1.N) : (dat1 V c).after 2 t = assignOut (xblk V c t) (mublk V c t) := by dsimp only [dat1]

/-- The points' staging buffer holds the point's block when the body is called. -/
theorem before_x (c : Dev nD) (t : Fin cfg1.N) (d) : (dat1 V c).before 0 t d = xblk V c t :=
  ((dat1 V c).before_in_eq_fetched 0 rfl (fun _ => rfl) (fun _ _ _ => rfl)
    (fun t => by rw [after_x]; unfold Dat.blockOf blk1; rw [A_eq]; try rfl) t d).trans
    (by unfold Dat.fetched Dat.blockOf; rw [A_eq]; rfl)
/-- The centroids' staging buffer holds the table at every point, fetched there or not: its block index never moves. -/
theorem before_mu (c : Dev nD) (t : Fin cfg1.N) (d) : (dat1 V c).before 1 t d = mublk V c t :=
  ((dat1 V c).before_in_eq_fetched 1 rfl (fun _ => rfl) (fun _ _ _ => rfl)
    (fun t => by rw [after_mu]; unfold Dat.blockOf blk1; rw [A_eq]; try rfl) t d).trans
    (by unfold Dat.fetched Dat.blockOf; rw [A_eq]; rfl)

set_option maxHeartbeats 2000000 in
/-- The body at any point: the input buffers hold the point's blocks, so the body's triple applies; the invariant and the
    core's dues pass through unread. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t))) := by
  unfold bodyAt1
  simp only [before_x, before_mu]
  rw [show (dat1 V c).Φ t.succ = (dat1 V c).Φ t.castSucc from rfl,
    show (dat1 V c).owesAt () t.succ = (dat1 V c).owesAt () t.castSucc from rfl, after_x, after_mu, after_out]
  iintro ⟨HΦ, Ho, ⟨%d0, H0⟩, ⟨%d1, H1⟩, ⟨%d2, H2⟩⟩
  iapply (run_assign c (grid1.coords t) _ _ _ _ _ _ (xblk V c t) (mublk V c t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is its invariant, and the invariant is what it gives back. -/
theorem phi_in (c : Dev nD) : Pipeline.ΦA spec1 c ⊢ (dat1 V c).Φ 0 := Idealize.SL.BI.Entails.refl _
theorem phi_out (c : Dev nD) : (dat1 V c).Φ (Fin.last cfg1.N) ⊢ Pipeline.ΦA spec1 c := Idealize.SL.BI.Entails.refl _

end Cert.KernelIdeal.Assign

end
-- ==== Proof.Whole.lean ====
import proofs.«175471_j7017976562073_1_alg».proof.Proof.Gen.KernelIdeal.Launch
import proofs.«175471_j7017976562073_1_alg».proof.Proof.Gen.KernelIdeal.Skeleton
import proofs.«175471_j7017976562073_1_alg».proof.Proof.Gen.KernelIdeal.Points
import proofs.«175471_j7017976562073_1_alg».proof.Proof.CentroidFrame
import proofs.«175471_j7017976562073_1_alg».proof.Proof.AssignFrame
import proofs.«175471_j7017976562073_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program: the centroid region, the assignment region, a transpose

@main enters the first region from the launch memory, the second from what the first leaves, and then transposes the
second region's 64 x 16384 result on the host. The contents of the core's unscoped buffers at each of the three
boundaries are named below; the run ends with every unscoped buffer at the last of them. -/

variable (m : (ℓ : Loc nD τ sig) → Buf (Elt F) ℓ) (ρ : Dev nD → PrngReg)

/-! ## The buffers at each boundary -/

/-- At launch. -/
abbrev W0 : Dev nD → Valuation τ sig (Elt F) := fun c b => m (c, b)
/-- The same read at the TensorCore's references: what the first region is entered with. -/
abbrev Va : (c : Dev nD) → (b : Ref sig .tc) → Buf (Elt F) ((c : Thread nD τ).loc b) := fun c b => W0 m c b
/-- After the first region: its arrays at what its write-backs leave, every other buffer as before. -/
def W1 (c : Dev nD) : Valuation τ sig (Elt F) :=
  Pipeline.withArrays spec0 c (W0 m c) fun w => (Centroid.dat0 (Va m) c).arrAt w cfg0.N
theorem W1_arr (c : Dev nD) (w : Fin cfg0.W) :
    W1 m c (Proc.devRef .tc (Pipeline.arrRef spec0 w)) = (Centroid.dat0 (Va m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- What the second region is entered with. -/
abbrev Vb : (c : Dev nD) → (b : Ref sig .tc) → Buf (Elt F) ((c : Thread nD τ).loc b) := fun c b => W1 m c b
theorem hF0 (c : Dev nD) (w : Fin cfg0.W) : (Centroid.dat0 (Va m) c).arrAt w cfg0.N = Vb m c (Pipeline.arrRef spec0 w) :=
  (W1_arr m c w).symm
theorem hrest0 (c : Dev nD) : ∀ b, b ∉ Finset.univ.image (Pipeline.arrRef spec0) → Vb m c b = Va m c b :=
  fun b hb => W1_of_ne m c b fun w e => hb (Finset.mem_image.mpr ⟨w, Finset.mem_univ _, e⟩)

/-- After the second region. -/
def W2 (c : Dev nD) : Valuation τ sig (Elt F) :=
  Pipeline.withArrays spec1 c (W1 m c) fun w => (Assign.dat1 (Vb m) c).arrAt w cfg1.N
theorem W2_arr (c : Dev nD) (w : Fin cfg1.W) :
    W2 m c (Proc.devRef .tc (Pipeline.arrRef spec1 w)) = (Assign.dat1 (Vb m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev Vc : (c : Dev nD) → (b : Ref sig .tc) → Buf (Elt F) ((c : Thread nD τ).loc b) := fun c b => W2 m c b
theorem hF1 (c : Dev nD) (w : Fin cfg1.W) : (Assign.dat1 (Vb m) c).arrAt w cfg1.N = Vc m c (Pipeline.arrRef spec1 w) :=
  (W2_arr m c w).symm
theorem hrest1 (c : Dev nD) : ∀ b, b ∉ Finset.univ.image (Pipeline.arrRef spec1) → Vc m c b = Vb m c b :=
  fun b hb => W2_of_ne m c b fun w e => hb (Finset.mem_image.mpr ⟨w, Finset.mem_univ _, e⟩)

/-- After the transpose: the end. -/
abbrev W3 : Dev nD → Valuation τ sig (Elt F) := fun c => StableHlo.after hostOps2 (W2 m c)

/-! ## The proof data family and the thread state -/

/-- No pallas_call has a prefetched table. -/
abbrev adm : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => Centroid.dat0 (Va m) c
  | ⟨1, _⟩ => fun c => Assign.dat1 (Vb m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)

theorem hostOps2_fresh : (hostOps2 : List (HloOp τ sig (Elt F))).Forall fun op => op.fresh = ∅ := by
  simp only [List.Forall]; repeat' constructor

/-- The transpose as a segment over the unscoped buffers from `W2`. -/
abbrev tailSeg : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

/-- The last thread state without the dues: every unscoped buffer at `W3`, the generator register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered with every unscoped buffer at `W0`, left with them at `W1`. Its
    arrays are split out of the unscoped buffers at entry and put back, at what the write-backs leave, at exit; the
    generator register goes into the region's invariant and comes back; the kernel has no semaphore of its own and the
    core owes nothing. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Centroid.body_obligation0 (Va m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have hback : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (Centroid.phi_out (Va m) c).trans hback
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (Vb m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W1`, left with them at `W2`. Its
    arrays are split out of the unscoped buffers at entry and put back, at what the write-backs leave, at exit; the
    generator register goes into the region's invariant and comes back; the kernel has no semaphore of its own and the
    core owes nothing. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Assign.body_obligation1 (Vb m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb m c) (Vc m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m), .host (tailSeg m) ]

theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters, every weakly fair execution of @main terminates, nothing faulting, and
    every final memory holds each unscoped buffer of each core at `W3`: the launch memory changed by the two regions'
    write-backs and the transpose. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (StableHlo.after hostOps2 (W2 m c)) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-! ## The arguments end as launched

Neither argument is written by the transpose; each region reads an argument through an input window (whose array the
write-backs leave alone) or does not touch it. -/

theorem W3_of_not_written (c : Dev nD) (r : Ref sig .tc) (h : r ∉ hostOps2_W) :
    W3 m c (Proc.devRef .tc r) = W2 m c (Proc.devRef .tc r) :=
  StableHlo.after_of_writes_sub hostOps2 _ hostOps2_writes h

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_not_written m c main_arg0 (by decide)
    _ = W1 m c (Proc.devRef .tc main_arg0) := (W2_arr m c 0).trans (((Assign.dat1 (Vb m) c).arrAt_in 0 rfl _).trans (Assign.A_eq (Vb m) c 0))
    _ = W0 m c (Proc.devRef .tc main_arg0) := (W1_arr m c 1).trans (((Centroid.dat0 (Va m) c).arrAt_in 1 rfl _).trans (Centroid.A_eq (Va m) c 1))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_not_written m c main_arg1 (by decide)
    _ = W1 m c (Proc.devRef .tc main_arg1) := W2_of_ne m c main_arg1 (by decide)
    _ = W0 m c (Proc.devRef .tc main_arg1) := (W1_arr m c 0).trans (((Centroid.dat0 (Va m) c).arrAt_in 0 rfl _).trans (Centroid.A_eq (Va m) c 0))
    _ = m ((c : Thread nD τ).loc main_arg1) := rfl

/-- THE FRAME: every weakly fair execution terminates, nothing faulting, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m c),
     (h c _ (mem_uc main_arg1 (by decide))).trans (W3_main_arg1 m c)⟩) (run m ρ)

end Cert.KernelIdeal.Whole

end
-- ==== Proof.CentroidValue.lean ====
import proofs.«175471_j7017976562073_1_alg».proof.Proof.CentroidBody
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Centroid

open Cert.KernelIdeal Cert.KernelIdeal.Gen Idealize.ShloMosaic Idealize.ShloMosaic.ValueIdx

/-! # The centroid kernel's payloads read at an index, over the extended reals -/

/-- The reset value of the 64 x 256 accumulator is zero at every entry. -/
theorem zeroAcc_apply (p : Fin 64) (q : Fin 256) : (k0_pay1 (F := Ideal)) (ix2 p q) = 0 := by
  unfold k0_pay1
  refine (congrFun (shapeCast_self _ _) _).trans ?_
  exact Ideal.ofBits_zero_f32

/-- The reset value of the 1 x 64 totals is zero at every entry. -/
theorem zeroCnt_apply (p : Fin 64) : (k0_pay2 (F := Ideal)) (ix2 (0 : Fin 1) p) = 0 := by
  unfold k0_pay2
  refine (congrFun (shapeCast_self _ _) _).trans ?_
  exact Ideal.ofBits_zero_f32

/-! ## The product that contracts the leading axis of both operands -/

/-- The product's dimension numbers: axis 0 of each operand is contracted, axis 1 of each is kept. -/
private abbrev D := dot_S2048x64_S2048x256_S64x256_0_0_1_1_n_n

/-- The left operand's row coordinate is the contraction position. -/
private theorem lhs_0 (i : S64x256.Idx) (k : D.contr.Idx) : (D.lhsIdx i k 0).val = (k ⟨0, by decide⟩).val :=
  D.lhsIdx_val_of_single rfl i k

/-- The left operand's column coordinate is the result's row. -/
private theorem lhs_1 (i : S64x256.Idx) (k : D.contr.Idx) : (D.lhsIdx i k 1).val = (i 0).val := by
  unfold DotDims.lhsIdx
  rw [dif_neg (show ¬(1 : Fin S2048x64.rank) ∈ D.lhsBatch by decide), dif_pos (show (1 : Fin S2048x64.rank) ∈ D.lhsNonContracting by decide)]
  rfl

/-- The right operand's row coordinate is the contraction position. -/
private theorem rhs_0 (i : S64x256.Idx) (k : D.contr.Idx) : (D.rhsIdx i k 0).val = (k ⟨0, by decide⟩).val :=
  D.rhsIdx_val_of_single rfl i k

/-- The right operand's column coordinate is the result's column. -/
private theorem rhs_1 (i : S64x256.Idx) (k : D.contr.Idx) : (D.rhsIdx i k 1).val = (i 1).val := by
  unfold DotDims.rhsIdx
  rw [dif_neg (show ¬(1 : Fin S2048x256.rank) ∈ D.rhsBatch by decide), dif_pos (show (1 : Fin S2048x256.rank) ∈ D.rhsNonContracting by decide)]
  rfl

/-- The block product at (p, q): the sum over the block's rows r of mb (r, p) * xb (r, q). -/
private theorem blockDot_apply (mb : FVec Ideal S2048x64 .f32) (xb : FVec Ideal S2048x256 .f32) (p : Fin 64) (q : Fin 256) :
    matmul (F := Ideal) D (some .fp32) mb xb (constant (F := Ideal) S64x256 .f32 0x00000000#32) (ix2 p q)
      = ∑ r : Fin 2048, mb (ix2 r p) * xb (ix2 r q) := by
  refine (Ideal.matmul_constant_zero_apply D (some .fp32) mb xb (ix2 p q)).trans ?_
  rw [← Equiv.sum_comp (contrEquiv1 D 2048 rfl rfl).symm]
  refine Finset.sum_congr rfl fun r _ => ?_
  have hk := contrEquiv1_symm_val D 2048 rfl rfl r
  have el : D.lhsIdx (ix2 p q) ((contrEquiv1 D 2048 rfl rfl).symm r) = ix2 r p := funext fun a => Fin.ext (by
    match a with
    | ⟨0, _⟩ => exact (lhs_0 _ _).trans hk
    | ⟨1, _⟩ => exact lhs_1 _ _)
  have er : D.rhsIdx (ix2 p q) ((contrEquiv1 D 2048 rfl rfl).symm r) = ix2 r q := funext fun a => Fin.ext (by
    match a with
    | ⟨0, _⟩ => exact (rhs_0 _ _).trans hk
    | ⟨1, _⟩ => exact rhs_1 _ _)
  rw [el, er]

/-- One accumulation step at (p, q): the accumulator there plus the block's weighted sum. -/
theorem accStep_apply (mb : Vec Ideal S2048x64 .f32) (xb : Vec Ideal S2048x256 .f32) (a : Vec Ideal S64x256 .f32) (p : Fin 64) (q : Fin 256) :
    accStep mb xb a (ix2 p q) = a (ix2 p q) + ∑ r : Fin 2048, mb (ix2 r p) * xb (ix2 r q) := by
  show k0_pay3 mb xb a (ix2 p q) = _
  unfold k0_pay3
  refine (congrFun (shapeCast_self _ _) _).trans ?_
  refine (addf_apply _ _ _).trans ?_
  exact congrArg (a (ix2 p q) + ·) (blockDot_apply mb xb p q)

/-! ## The column sums -/

/-- The block's sum over its rows, at column p. -/
private theorem colSum_apply (mb : FVec Ideal S2048x64 .f32) (p : Fin 64) :
    multiReduction (F := Ideal) .add [0] S64 mb 0x00000000#32 Facts₀.reduces_S2048x64_S64 (.inl rfl) rfl (ix1 p)
      = ∑ r : Fin 2048, mb (ix2 r p) := by
  refine (Ideal.multiReduction_add_single mb _ Facts₀.reduces_S2048x64_S64 (.inl rfl) rfl (ix1 p)).trans ?_
  refine Finset.sum_congr rfl fun r _ => ?_
  exact congrArg mb (funext fun a => Fin.ext (by match a with | ⟨0, _⟩ => rfl | ⟨1, _⟩ => rfl))

/-- One step of the totals at column p: the total there plus the block's column sum. -/
theorem cntStep_apply (mb : Vec Ideal S2048x64 .f32) (n : Vec Ideal S1x64 .f32) (p : Fin 64) :
    cntStep mb n (ix2 (0 : Fin 1) p) = n (ix2 (0 : Fin 1) p) + ∑ r : Fin 2048, mb (ix2 r p) := by
  show k0_pay4 mb n (ix2 (0 : Fin 1) p) = _
  unfold k0_pay4
  refine (congrFun (shapeCast_self _ _) _).trans ?_
  refine (addf_apply _ _ _).trans ?_
  refine congrArg (n (ix2 (0 : Fin 1) p) + ·) ?_
  refine (shapeCast_a_1a_apply _ Facts₀.shapeCasts_S64_S1x64 (0 : Fin 1) p).trans ?_
  exact colSum_apply mb p

/-! ## The centroids -/

/-- The centroid at (p, q): the accumulator there divided by row p's total. -/
theorem centroids_apply (n : Vec Ideal S1x64 .f32) (a : Vec Ideal S64x256 .f32) (p : Fin 64) (q : Fin 256) :
    centroids n a (ix2 p q) = Ideal.div (a (ix2 p q)) (n (ix2 (0 : Fin 1) p)) := by
  show k0_pay5 n a (ix2 p q) = _
  unfold k0_pay5
  refine (divf_apply _ _ _).trans ?_
  refine congrArg (Ideal.div (a (ix2 p q))) ?_
  refine (broadcastTo_apply _ Facts₀.broadcasts_S64x1_S64x256 (ix2 p q) (ix2 p (0 : Fin 1)) (fun ax => match ax with
    | ⟨0, _⟩ => rfl
    | ⟨1, _⟩ => rfl)).trans ?_
  exact transpose_ix2_apply n Facts₀.transposes_S1x64_p1_0_S64x1 p (0 : Fin 1)

end Cert.KernelIdeal.Centroid

end
-- ==== Proof.Spec.lean ====
/-
  The function both programs compute, stated once over the extended reals and over literal shapes.

  Inputs: `X : [16384, 256]` (points in latent space) and `M : [16384, 64]` (a weight of each point for each cluster;
  a one-hot membership in the intended use, but nothing below needs that).
  * `cnt M c`      the total weight of cluster `c`: the sum over all points `n` of `M n c`;
  * `acc X M c d`  the weighted sum of coordinate `d` over cluster `c`: the sum over `n` of `M n c * X n d`;
  * `mu X M c d`   the centroid's coordinate: `acc / cnt` (the quotient of the ideal instance, whatever `cnt` is);
  * `dist X M n c` the L1 distance of point `n` to centroid `c`: the sum over `d` of `|X n d - mu c d|`,
                   the absolute value written as `max x (-x)`;
  * `q X M n c`    the Student-t kernel `1 / (1 + dist)`;
  * `G X M (n, c)` the soft assignment `q n c / (sum over c' of q n c')`.
  The literal one is kept as the word both programs print for it.
-/
import Idealize.ShloMosaic.PureOps.Ideal
import Idealize.ShloMosaic.Lib.ValueIdx

noncomputable section

open scoped BigOperators

namespace Cert.Spec

open Idealize.ShloMosaic Idealize.ShloMosaic.ValueIdx

/-- The points: 16384 rows of 256 coordinates. -/
abbrev XArr : Type := (⟨2, ![16384, 256]⟩ : Shape).Idx → EReal
/-- The weights: 16384 rows of 64 clusters. -/
abbrev MArr : Type := (⟨2, ![16384, 64]⟩ : Shape).Idx → EReal

/-- The number one, as the f32 word both programs carry. -/
def one : EReal := Ideal.ofBits .f32 0x3F800000#32

/-- The total weight of cluster `c`. -/
def cnt (M : MArr) (c : Fin 64) : EReal := ∑ n : Fin 16384, M (ix2 n c)

/-- The weighted sum of coordinate `d` over cluster `c`. -/
def acc (X : XArr) (M : MArr) (c : Fin 64) (d : Fin 256) : EReal := ∑ n : Fin 16384, M (ix2 n c) * X (ix2 n d)

/-- The centroid of cluster `c`, coordinate `d`. -/
def mu (X : XArr) (M : MArr) (c : Fin 64) (d : Fin 256) : EReal := Ideal.div (acc X M c d) (cnt M c)

/-- The L1 distance of point `n` to the centroid of cluster `c`. -/
def dist (X : XArr) (M : MArr) (n : Fin 16384) (c : Fin 64) : EReal :=
  ∑ d : Fin 256, max (X (ix2 n d) - mu X M c d) (-(X (ix2 n d) - mu X M c d))

/-- The Student-t kernel of that distance. -/
def q (X : XArr) (M : MArr) (n : Fin 16384) (c : Fin 64) : EReal := Ideal.div one (one + dist X M n c)

/-- The soft assignment of point `n` to cluster `c`: the kernel normalised over the clusters. -/
def G (X : XArr) (M : MArr) : (⟨2, ![16384, 64]⟩ : Shape).Idx → EReal :=
  fun j => Ideal.div (q X M (j 0) (j 1)) (∑ c : Fin 64, q X M (j 0) c)

end Cert.Spec

end
-- ==== Proof.SpecOf.lean ====
/-
  The specification with the centroid table as a parameter: what the assignment stage computes from the points `X` and
  ANY 64 x 256 table `MU`, and that the whole specification is this at the table of centroids.
-/
import proofs.«175471_j7017976562073_1_alg».proof.Proof.Spec

noncomputable section

open scoped BigOperators

namespace Cert.Spec

open Idealize.ShloMosaic Idealize.ShloMosaic.ValueIdx

/-- A table of 64 centroids of 256 coordinates. -/
abbrev MuArr : Type := (⟨2, ![64, 256]⟩ : Shape).Idx → EReal

/-- The table of centroids of the weights `M`. -/
def muTable (X : XArr) (M : MArr) : MuArr := fun i => mu X M (i 0) (i 1)

/-- The L1 distance of point `n` to row `c` of the table. -/
def distOf (X : XArr) (MU : MuArr) (n : Fin 16384) (c : Fin 64) : EReal :=
  ∑ d : Fin 256, max (X (ix2 n d) - MU (ix2 c d)) (-(X (ix2 n d) - MU (ix2 c d)))

/-- The Student-t kernel of that distance. -/
def qOf (X : XArr) (MU : MuArr) (n : Fin 16384) (c : Fin 64) : EReal := Ideal.div one (one + distOf X MU n c)

/-- The soft assignment against the table, point-major: index `(n, c)`. -/
def GOf (X : XArr) (MU : MuArr) : (⟨2, ![16384, 64]⟩ : Shape).Idx → EReal :=
  fun j => Ideal.div (qOf X MU (j 0) (j 1)) (∑ c : Fin 64, qOf X MU (j 0) c)

/-- The same, cluster-major: index `(c, n)`, as the assignment stage lays it out before the final transpose. -/
def GOfT (X : XArr) (MU : MuArr) : (⟨2, ![64, 16384]⟩ : Shape).Idx → EReal :=
  fun i => GOf X MU (ix2 (i 1) (i 0))

theorem distOf_muTable (X : XArr) (M : MArr) (n : Fin 16384) (c : Fin 64) : distOf X (muTable X M) n c = dist X M n c := rfl

/-- The specification is the assignment against the table of centroids. -/
theorem G_eq_GOf (X : XArr) (M : MArr) : G X M = GOf X (muTable X M) := rfl

end Cert.Spec

end
-- ==== Proof.MuArray.lean ====
/-
  The centroid region's output array, as one function of the region's inputs: after the region, the 64 x 256 output holds
  `mu X M c d = (sum over all 16384 points n of M n c * X n d) / (sum over all points n of M n c)`, where `X` and `M` are
  the contents of the points' and of the weights' arrays when the region is entered.

  The steps: the index maps of the three windows over the 8 grid points (decided once); an input block read at an index is
  the array read at row `2048 t + r`; by induction on the point, the two accumulators after point `n` are the sums of the
  blocks `0 .. n`' shares; a sum over 16384 rows is the sum over 8 blocks of 2048 rows (a regrouping of a finite sum in a
  commutative monoid); so the last point's quotient is the table of centroids; the last point alone writes back, and its
  block is the whole array.
-/
import proofs.«175471_j7017976562073_1_alg».proof.Proof.CentroidFrame
import proofs.«175471_j7017976562073_1_alg».proof.Proof.CentroidValue
import proofs.«175471_j7017976562073_1_alg».proof.Proof.SpecOf
import Idealize.ShloMosaic.Lib.Pipeline.Value
import Idealize.ShloMosaic.Lib.ValueIdx
import Mathlib.Algebra.BigOperators.Fin
import Mathlib.Logic.Equiv.Fin.Basic

set_option maxRecDepth 16384

noncomputable section

open scoped BigOperators

namespace Cert.KernelIdeal.Centroid

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! # From the blocks to the array: the centroid region's output

The region's grid has 8 points; point `t` sees rows `2048 t .. 2048 t + 2047` of the weights `M` and of the points `X`.
After point `n` the two accumulators hold the sums over the blocks `0 .. n`; after the last point that is the sum over all
16384 rows, and the one block written back, the whole 64 x 256 output array, holds the quotients: the centroids. -/

section Blocks

variable {F : FTy → Type} [FloatOps F]
variable (V : (c : Dev nD) → (b : Ref sig .tc) → Buf (Elt F) ((c : Thread nD τ).loc b))

/-! ## The index maps over the grid -/

/-- The weights' block at point `t` is block `(t, 0)` of its array. -/
theorem idx_m : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- The points' block at point `t` is block `(t, 0)` of its array. -/
theorem idx_x : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- The output's block is block `(0, 0)` of its array at every point. -/
theorem idx_out : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-! ## The input blocks read at an index -/

/-- Entry `(r, p)` of the weights' block at point `t` is entry `(2048 t + r, p)` of the weights. -/
theorem mblk_apply (c : Dev nD) (t : Fin cfg0.N) (y : S2048x64.Idx) (i : S16384x64.Idx)
    (h0 : (i 0).val = 2048 * t.val + (y 0).val) (h1 : (i 1).val = (y 1).val) :
    mblk V c t y = (V c main_arg1 : S16384x64.Idx → Elt F .f32) i := by
  obtain ⟨e0, e1⟩ := idx_m t
  show blk0 V c 0 t y = _
  unfold blk0
  rw [View.read_apply]
  show V c main_arg1 _ = V c main_arg1 _
  congr 1
  funext a
  apply Fin.ext
  match a with
  | ⟨0, _⟩ => show win0_0.index t (0 : Fin 2) * 2048 + 1 * (y 0).val = (i 0).val; rw [e0, h0]; omega
  | ⟨1, _⟩ => show win0_0.index t (1 : Fin 2) * 64 + 1 * (y 1).val = (i 1).val; rw [e1, h1]; omega

/-- Entry `(r, q)` of the points' block at point `t` is entry `(2048 t + r, q)` of the points. -/
theorem xblk_apply (c : Dev nD) (t : Fin cfg0.N) (y : S2048x256.Idx) (i : S16384x256.Idx)
    (h0 : (i 0).val = 2048 * t.val + (y 0).val) (h1 : (i 1).val = (y 1).val) :
    xblk V c t y = (V c main_arg0 : S16384x256.Idx → Elt F .f32) i := by
  obtain ⟨e0, e1⟩ := idx_x t
  show blk0 V c 1 t y = _
  unfold blk0
  rw [View.read_apply]
  show V c main_arg0 _ = V c main_arg0 _
  congr 1
  funext a
  apply Fin.ext
  match a with
  | ⟨0, _⟩ => show win0_1.index t (0 : Fin 2) * 2048 + 1 * (y 0).val = (i 0).val; rw [e0, h0]; omega
  | ⟨1, _⟩ => show win0_1.index t (1 : Fin 2) * 256 + 1 * (y 1).val = (i 1).val; rw [e1, h1]; omega

end Blocks

/-! ## The rows, block by block -/

/-- Row `2048 k + r` of a 16384-row array (taken modulo 16384, so that it is a row whatever `k` is). -/
def rowAt (k : ℕ) (r : Fin 2048) : Fin 16384 := ⟨(2048 * k + r.val) % 16384, Nat.mod_lt _ (by decide)⟩

theorem rowAt_val (k : ℕ) (hk : k < 8) (r : Fin 2048) : (rowAt k r).val = 2048 * k + r.val := by
  show (2048 * k + r.val) % 16384 = _
  have := r.isLt; omega

/-- A sum over the 16384 rows is the sum over the 8 blocks of the sums over each block's 2048 rows: addition is
    commutative and associative, so the regrouping holds in every additive commutative monoid. -/
theorem sum_rows {A : Type} [AddCommMonoid A] (f : Fin 16384 → A) :
    ∑ n : Fin 16384, f n = ∑ k ∈ Finset.range 8, ∑ r : Fin 2048, f (rowAt k r) :=
  calc ∑ n : Fin 16384, f n
      = ∑ x : Fin 8 × Fin 2048, f (finProdFinEquiv x) := (Equiv.sum_comp (finProdFinEquiv (m := 8) (n := 2048)) f).symm
    _ = ∑ k : Fin 8, ∑ r : Fin 2048, f (finProdFinEquiv (k, r)) := Fintype.sum_prod_type _
    _ = ∑ k : Fin 8, ∑ r : Fin 2048, f (rowAt k.val r) :=
        Finset.sum_congr rfl fun k _ => Finset.sum_congr rfl fun r _ => congrArg f (Fin.ext (by
          show r.val + 2048 * k.val = (2048 * k.val + r.val) % 16384
          have := k.isLt; have := r.isLt; omega))
    _ = ∑ k ∈ Finset.range 8, ∑ r : Fin 2048, f (rowAt k r) :=
        Fin.sum_univ_eq_sum_range (fun k => ∑ r : Fin 2048, f (rowAt k r)) 8

/-- Block `k`'s share of the weighted sum of coordinate `q` over cluster `p`. -/
def accBlock (X : Cert.Spec.XArr) (M : Cert.Spec.MArr) (k : ℕ) (p : Fin 64) (q : Fin 256) : EReal :=
  ∑ r : Fin 2048, M (ix2 (rowAt k r) p) * X (ix2 (rowAt k r) q)
/-- Block `k`'s share of the total weight of cluster `p`. -/
def cntBlock (M : Cert.Spec.MArr) (k : ℕ) (p : Fin 64) : EReal := ∑ r : Fin 2048, M (ix2 (rowAt k r) p)

/-- The weighted sum over all points is the sum of the 8 blocks' shares. -/
theorem acc_blocks (X : Cert.Spec.XArr) (M : Cert.Spec.MArr) (p : Fin 64) (q : Fin 256) :
    Cert.Spec.acc X M p q = ∑ k ∈ Finset.range 8, accBlock X M k p q :=
  sum_rows fun n => M (ix2 n p) * X (ix2 n q)
/-- The total weight is the sum of the 8 blocks' shares. -/
theorem cnt_blocks (M : Cert.Spec.MArr) (p : Fin 64) : Cert.Spec.cnt M p = ∑ k ∈ Finset.range 8, cntBlock M k p :=
  sum_rows fun n => M (ix2 n p)

/-! ## The accumulators after each point, read at an index -/

section Sums

variable (V : (c : Dev nD) → (b : Ref sig .tc) → Buf (Elt Ideal) ((c : Thread nD τ).loc b))
variable (c : Dev nD) (X : Cert.Spec.XArr) (M : Cert.Spec.MArr)

/-- What point `t` adds to the weighted sums is block `t`'s share. -/
theorem block_acc (hX : V c main_arg0 = X) (hM : V c main_arg1 = M) (t : Fin cfg0.N) (p : Fin 64) (q : Fin 256) :
    ∑ r : Fin 2048, mblk V c t (ix2 r p) * xblk V c t (ix2 r q) = accBlock X M t.val p q := by
  have hN : t.val < 8 := lt_of_lt_of_eq t.isLt (show cfg0.N = 8 from N_0)
  unfold accBlock
  refine Finset.sum_congr rfl fun r _ => ?_
  rw [mblk_apply V c t (ix2 r p) (ix2 (rowAt t.val r) p) (rowAt_val _ hN r) rfl,
    xblk_apply V c t (ix2 r q) (ix2 (rowAt t.val r) q) (rowAt_val _ hN r) rfl, hM, hX]

/-- What point `t` adds to the weight totals is block `t`'s share. -/
theorem block_cnt (hM : V c main_arg1 = M) (t : Fin cfg0.N) (p : Fin 64) :
    ∑ r : Fin 2048, mblk V c t (ix2 r p) = cntBlock M t.val p := by
  have hN : t.val < 8 := lt_of_lt_of_eq t.isLt (show cfg0.N = 8 from N_0)
  unfold cntBlock
  refine Finset.sum_congr rfl fun r _ => ?_
  rw [mblk_apply V c t (ix2 r p) (ix2 (rowAt t.val r) p) (rowAt_val _ hN r) rfl, hM]

/-- After point `n` the weighted sums hold the shares of the blocks `0 .. n`. -/
theorem accAt_apply (hX : V c main_arg0 = X) (hM : V c main_arg1 = M) (p : Fin 64) (q : Fin 256) :
    ∀ (n : ℕ) (h : n < cfg0.N), accAt V c n h (ix2 p q) = ∑ k ∈ Finset.range (n + 1), accBlock X M k p q
  | 0, h => by
    rw [show accAt V c 0 h = accStep (mblk V c ⟨0, h⟩) (xblk V c ⟨0, h⟩) (k0_pay1 (F := Ideal)) from rfl,
      accStep_apply, zeroAcc_apply, zero_add, Finset.sum_range_one]
    exact block_acc V c X M hX hM ⟨0, h⟩ p q
  | n + 1, h => by
    rw [show accAt V c (n + 1) h = accStep (mblk V c ⟨n + 1, h⟩) (xblk V c ⟨n + 1, h⟩) (accAt V c n (Nat.lt_of_succ_lt h)) from rfl,
      accStep_apply, accAt_apply hX hM p q n (Nat.lt_of_succ_lt h), Finset.sum_range_succ _ (n + 1)]
    exact congrArg _ (block_acc V c X M hX hM ⟨n + 1, h⟩ p q)

/-- After point `n` the weight totals hold the shares of the blocks `0 .. n`. -/
theorem cntAt_apply (hM : V c main_arg1 = M) (p : Fin 64) :
    ∀ (n : ℕ) (h : n < cfg0.N), cntAt V c n h (ix2 (0 : Fin 1) p) = ∑ k ∈ Finset.range (n + 1), cntBlock M k p
  | 0, h => by
    rw [show cntAt V c 0 h = cntStep (mblk V c ⟨0, h⟩) (k0_pay2 (F := Ideal)) from rfl,
      cntStep_apply, zeroCnt_apply, zero_add, Finset.sum_range_one]
    exact block_cnt V c M hM ⟨0, h⟩ p
  | n + 1, h => by
    rw [show cntAt V c (n + 1) h = cntStep (mblk V c ⟨n + 1, h⟩) (cntAt V c n (Nat.lt_of_succ_lt h)) from rfl,
      cntStep_apply, cntAt_apply hM p n (Nat.lt_of_succ_lt h), Finset.sum_range_succ _ (n + 1)]
    exact congrArg _ (block_cnt V c M hM ⟨n + 1, h⟩ p)

/-- At the last point the output block receives the table of centroids. -/
theorem centroids_last (hX : V c main_arg0 = X) (hM : V c main_arg1 = M) (t : Fin cfg0.N) (h7 : t.val = 7) :
    centroids (cntAt V c t.val t.isLt) (accAt V c t.val t.isLt) = Cert.Spec.muTable X M := by
  funext i
  obtain ⟨p, q, rfl⟩ : ∃ p q, i = ix2 p q := ⟨i 0, i 1, eq_ix2 i⟩
  rw [centroids_apply, accAt_apply V c X M hX hM p q t.val t.isLt, cntAt_apply V c M hM p t.val t.isLt, h7]
  show Ideal.div _ _ = Ideal.div (Cert.Spec.acc X M p q) (Cert.Spec.cnt M p)
  rw [acc_blocks, cnt_blocks]

end Sums

/-! ## The one write-back, and the array -/

/-- The output's block sits at the array's origin and is as large as the array: a whole array's contents, cut to the block,
    are those contents read through the block. -/
theorem cut_eq_read_out {F : FTy → Type} [FloatOps F] (t : Fin cfg0.N) (G : S64x256.Idx → Elt F .f32) :
    (cfg0.win 2).cut (grid0.coords t) G = ((cfg0.win 2).blk t).view.read (Elt F) G := by
  obtain ⟨e0, e1⟩ := idx_out t
  funext j
  show G ((cfg0.win 2).xinj (grid0.coords t) j) = G (((cfg0.win 2).blk t).view.emb j)
  congr 1
  funext a
  apply Fin.ext
  match a with
  | ⟨0, _⟩ => show (j 0).val = win0_2.index t (0 : Fin 2) * 64 + 1 * (j 0).val; rw [e0]; omega
  | ⟨1, _⟩ => show (j 1).val = win0_2.index t (1 : Fin 2) * 256 + 1 * (j 1).val; rw [e1]; omega

section Array

variable (V : (c : Dev nD) → (b : Ref sig .tc) → Buf (Elt Ideal) ((c : Thread nD τ).loc b))
variable (c : Dev nD) (X : Cert.Spec.XArr) (M : Cert.Spec.MArr)

/-- What a point that writes back writes is its block of the table of centroids: only the last point writes back. -/
theorem flushed_out (hX : V c main_arg0 = X) (hM : V c main_arg1 = M) (t : Fin cfg0.N) (hf : (cfg0.win 2).flush t = true) :
    (dat0 (F := Ideal) V c).flushed 2 t = ((cfg0.win 2).blk t).view.read (Elt Ideal) (Cert.Spec.muTable X M) := by
  have hN : t.val < 8 := lt_of_lt_of_eq t.isLt (show cfg0.N = 8 from N_0)
  have h7 : t.val = 7 := by have := (flush0_2 t).mp hf; omega
  show (cfg0.win 2).cut (grid0.coords t) ((dat0 V c).after 2 t) = _
  rw [after_out, centroids_last V c X M hX hM t h7]
  exact cut_eq_read_out (F := Ideal) t (Cert.Spec.muTable X M)

/-- An index of the array is in point `t`'s block iff each coordinate is in the block's range on its axis. -/
theorem mem_blk_out (t : Fin cfg0.N) (i : S64x256.Idx) :
    i ∈ ((cfg0.win 2).blk t).view.set ↔ ∀ a : Fin 2, win0_2.index t a * S64x256.size a ≤ (i a).val ∧ (i a).val < win0_2.index t a * S64x256.size a + S64x256.size a := by
  show i ∈ ((View.whole main_v0).slice (win0_2.rect t)).set ↔ _
  rw [View.set_slice_whole, Rect.mem_set_unit]
  exact Iff.rfl

/-- The last point's block is the whole array. -/
theorem covered_out (i : S64x256.Idx) : ∃ t : Fin cfg0.N, (cfg0.win 2).flush t = true ∧ i ∈ ((cfg0.win 2).blk t).view.set := by
  obtain ⟨e0, e1⟩ := idx_out t0_7
  have hi0 : (i 0).val < 64 := (i 0).isLt
  have hi1 : (i 1).val < 256 := (i 1).isLt
  refine ⟨t0_7, (flush0_2 t0_7).mpr rfl, ?_⟩
  rw [mem_blk_out]
  intro a
  match a with
  | ⟨0, _⟩ => show win0_2.index t0_7 (0 : Fin 2) * 64 ≤ (i 0).val ∧ (i 0).val < win0_2.index t0_7 (0 : Fin 2) * 64 + 64; rw [e0]; omega
  | ⟨1, _⟩ => show win0_2.index t0_7 (1 : Fin 2) * 256 ≤ (i 1).val ∧ (i 1).val < win0_2.index t0_7 (1 : Fin 2) * 256 + 256; rw [e1]; omega

end Array

/-- After the region, the output array holds the centroids: (sum over all 16384 points of M n c * X n d) / (sum over all points of M n c). -/
theorem mu_array (V : (c : Dev nD) → (b : Ref sig .tc) → Buf (Elt Ideal) ((c : Thread nD τ).loc b)) (c : Dev nD)
    (X : Cert.Spec.XArr) (M : Cert.Spec.MArr) (hX : V c main_arg0 = X) (hM : V c main_arg1 = M) :
    (dat0 (F := Ideal) V c).arrAt 2 cfg0.N = Cert.Spec.muTable X M :=
  (dat0 (F := Ideal) V c).arrAt_eq_of_cover 2 (Cert.Spec.muTable X M) (flushed_out V c X M hX hM) covered_out

end Cert.KernelIdeal.Centroid

end
-- ==== Proof.AssignValue.lean ====
import proofs.«175471_j7017976562073_1_alg».proof.Proof.AssignBody
import proofs.«175471_j7017976562073_1_alg».proof.Proof.Spec
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Assign

open Cert.KernelIdeal Cert.KernelIdeal.Gen
open Idealize.ShloMosaic Idealize.ShloMosaic.ValueIdx

/-! # The assignment body's values, entry by entry

Over the extended reals: a row of distances is, at point `j`, the sum over the 256 coordinates of `|x - m|` (the absolute
value written `max t (-t)`); the block of distances has that sum in row `r` for centroid `r`; and the body's output is
`q / (the sum of q over the 64 centroids)` with `q = 1 / (1 + distance)`. -/

/-- The absolute value of an array, read at an index. -/
theorem absf_apply {s : Shape} {φ : FTy} (a : FVec Ideal s φ) (i : s.Idx) : absf a i = max (a i) (-(a i)) := rfl

/-- Summing a 2048 x 256 array along its rows: the index `(j)` with coordinate `d` put back on axis 1 is `(j, d)`. -/
theorem lift_row (j : Fin 2048) (d : Fin 256) :
    reduces_S2048x256_S2048.lift (ix1 j) d = ix2 j d := by
  funext a
  match a with
  | ⟨0, _⟩ => exact Fin.ext rfl
  | ⟨1, _⟩ => exact Fin.ext rfl

/-- Summing a 64 x 2048 array down its columns: the index `(j)` with coordinate `r` put back on axis 0 is `(r, j)`. -/
theorem lift_col (j : Fin 2048) (r : Fin 64) :
    reduces_S64x2048_S2048.lift (ix1 j) r = ix2 r j := by
  funext a
  match a with
  | ⟨0, _⟩ => exact Fin.ext rfl
  | ⟨1, _⟩ => exact Fin.ext rfl

/-- The sum along axis 1 of a 2048 x 256 array, at `j`: the sum over the 256 coordinates of row `j`. -/
theorem rowSum_apply (v : FVec Ideal S2048x256 .f32) (hφ : FKind.Formats .f32)
    (hacc : (0x00000000#32 : BitVec 32) = FKind.add.neutral .f32 hφ) (j : Fin 2048) :
    multiReduction (F := Ideal) .add [1] S2048 v 0x00000000#32 reduces_S2048x256_S2048 hφ hacc (ix1 j)
      = ∑ d : Fin 256, v (ix2 j d) := by
  refine (Ideal.multiReduction_add_single v _ reduces_S2048x256_S2048 hφ hacc (ix1 j)).trans ?_
  exact Finset.sum_congr rfl fun d _ => congrArg v (lift_row j d)

/-- The sum along axis 0 of a 64 x 2048 array, at `j`: the sum over the 64 rows of column `j`. -/
theorem colSum_apply (v : FVec Ideal S64x2048 .f32) (hφ : FKind.Formats .f32)
    (hacc : (0x00000000#32 : BitVec 32) = FKind.add.neutral .f32 hφ) (j : Fin 2048) :
    multiReduction (F := Ideal) .add [0] S2048 v 0x00000000#32 reduces_S64x2048_S2048 hφ hacc (ix1 j)
      = ∑ r : Fin 64, v (ix2 r j) := by
  refine (Ideal.multiReduction_add_single v _ reduces_S64x2048_S2048 hφ hacc (ix1 j)).trans ?_
  exact Finset.sum_congr rfl fun r _ => congrArg v (lift_col j r)

/-- A 1 x 256 row cast to 256 and back to 1 x 256 is the row. -/
theorem castRow_apply (mr : Vec Ideal S1x256 .f32) (d : Fin 256) :
    shapeCast S1x256 (shapeCast S256 mr shapeCasts_S1x256_S256) shapeCasts_S256_S1x256 (ix2 (0 : Fin 1) d)
      = mr (ix2 (0 : Fin 1) d) :=
  (shapeCast_a_1a_apply _ shapeCasts_S256_S1x256 0 d).trans (shapeCast_1a_a_apply mr shapeCasts_S1x256_S256 d)

/-- One row of distances at point `j`: the sum over the coordinates of `|x - m|`. -/
theorem rowDist_apply (xb : Vec Ideal S2048x256 .f32) (mr : Vec Ideal S1x256 .f32) (j : Fin 2048) :
    rowDist xb mr (ix2 (0 : Fin 1) j)
      = ∑ d : Fin 256, max (xb (ix2 j d) - mr (ix2 (0 : Fin 1) d)) (-(xb (ix2 j d) - mr (ix2 (0 : Fin 1) d))) := by
  unfold rowDist k1_pay3
  refine (shapeCast_a_1a_apply _ shapeCasts_S2048_S1x2048 0 j).trans ?_
  refine (rowSum_apply _ _ _ j).trans ?_
  refine Finset.sum_congr rfl fun d _ => ?_
  refine (absf_apply _ _).trans ?_
  have e : broadcastTo S2048x256 (shapeCast S1x256 (shapeCast S256 mr shapeCasts_S1x256_S256) shapeCasts_S256_S1x256)
      broadcasts_S1x256_S2048x256 (ix2 j d) = mr (ix2 (0 : Fin 1) d) :=
    (broadcastTo_1b_ab_apply _ broadcasts_S1x256_S2048x256 j d).trans (castRow_apply mr d)
  rw [subf_apply, e]

/-- The block of distances at `(r, j)`: the distance of point `j` to centroid `r`. -/
theorem distBlk_apply (xb : Vec Ideal S2048x256 .f32) (mub : Vec Ideal S64x256 .f32) (r : Fin 64) (j : Fin 2048) :
    distBlk xb mub (ix2 r j)
      = ∑ d : Fin 256, max (xb (ix2 j d) - mub (ix2 r d)) (-(xb (ix2 j d) - mub (ix2 r d))) := by
  show rowDist xb (muRow mub r) (ix2 (0 : Fin 1) j) = _
  exact rowDist_apply xb (muRow mub r) j

/-- The Student-t kernel of a block of distances, as the body computes it: `1 / (1 + D)`, entry by entry. -/
def qBlk (D : Vec Ideal S64x2048 .f32) : FVec Ideal S64x2048 .f32 :=
  divf (broadcast S64x2048 (Scalar.ofBits .f32 0x3F800000#32))
    (addf (broadcast S64x2048 (Scalar.ofBits .f32 0x3F800000#32)) (shapeCast S64x2048 D shapeCasts_S64x2048_S64x2048))

/-- That kernel at an index. -/
theorem qBlk_apply (D : Vec Ideal S64x2048 .f32) (i : S64x2048.Idx) :
    qBlk D i = Ideal.div Cert.Spec.one (Cert.Spec.one + D i) := by
  unfold qBlk
  rw [shapeCast_self]
  rfl

/-- The body's output at `(r, j)`: `q r j` over the sum of `q r' j` over the 64 centroids, `q = 1 / (1 + distance)`. -/
theorem assignOut_apply (xb : Vec Ideal S2048x256 .f32) (mub : Vec Ideal S64x256 .f32) (r : Fin 64) (j : Fin 2048) :
    assignOut xb mub (ix2 r j)
      = Ideal.div (Ideal.div Cert.Spec.one (Cert.Spec.one + distBlk xb mub (ix2 r j)))
          (∑ r' : Fin 64, Ideal.div Cert.Spec.one (Cert.Spec.one + distBlk xb mub (ix2 r' j))) := by
  unfold assignOut k1_pay2
  refine (divf_apply _ _ _).trans ?_
  refine congrArg₂ Ideal.div ?_ ?_
  · exact qBlk_apply (distBlk xb mub) (ix2 r j)
  · refine (broadcastTo_1b_ab_apply _ broadcasts_S1x2048_S64x2048 r j).trans ?_
    refine (shapeCast_a_1a_apply _ shapeCasts_S2048_S1x2048 0 j).trans ?_
    refine (colSum_apply (qBlk (distBlk xb mub)) _ _ j).trans ?_
    exact Finset.sum_congr rfl fun r' _ => qBlk_apply (distBlk xb mub) (ix2 r' j)

end Cert.KernelIdeal.Assign

end
-- ==== Proof.OutArray.lean ====
import proofs.«175471_j7017976562073_1_alg».proof.Proof.AssignFrame
import proofs.«175471_j7017976562073_1_alg».proof.Proof.AssignValue
import proofs.«175471_j7017976562073_1_alg».proof.Proof.SpecOf
import Idealize.ShloMosaic.Lib.Pipeline.Value
import Idealize.ShloMosaic.Lib.ValueIdx

set_option maxRecDepth 16384

noncomputable section

open scoped BigOperators

namespace Cert.KernelIdeal.Assign

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! # The assignment region's output array -/

/-- One entry of the body's output block is the soft assignment of the point it belongs to: when the block of points holds
    rows `2048 t ..` of `X` and the centroid block is the table `MU`, entry `y = (r, j)` of the block is the cluster-major
    soft assignment at any index `k = (r, 2048 t + j)`. -/
theorem assignOut_entry (X : Cert.Spec.XArr) (MU : Cert.Spec.MuArr)
    (xb : Vec Ideal S2048x256 .f32) (mub : Vec Ideal S64x256 .f32) (t : ℕ)
    (hx : ∀ (j : Fin 2048) (d : Fin 256) (n : Fin 16384), n.val = 2048 * t + j.val → xb (ix2 j d) = X (ix2 n d))
    (hm : ∀ (r : Fin 64) (d : Fin 256), mub (ix2 r d) = MU (ix2 r d))
    (y : S64x2048.Idx) (k : S64x16384.Idx) (hk0 : (k 0).val = (y 0).val) (hk1 : (k 1).val = 2048 * t + (y 1).val) :
    assignOut xb mub y = Cert.Spec.GOfT X MU k := by
  obtain ⟨r, j, rfl⟩ : ∃ (r : Fin 64) (j : Fin 2048), y = ix2 r j := ⟨y 0, y 1, eq_ix2 y⟩
  obtain ⟨r', n, rfl⟩ : ∃ (r' : Fin 64) (n : Fin 16384), k = ix2 r' n := ⟨k 0, k 1, eq_ix2 k⟩
  obtain rfl : r' = r := Fin.ext hk0
  have hxj : ∀ d : Fin 256, xb (ix2 j d) = X (ix2 n d) := fun d => hx j d n hk1
  rw [assignOut_apply]
  simp only [distBlk_apply, hxj, hm]
  rfl

/-- The three index maps over the grid: the points' block moves down the rows with the point, the table's block never
    moves, and the output's block moves along the columns with the point. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = t.val :=
  (by decide +kernel : ∀ t : Fin grid1.N, _)

variable (V : (c : Dev nD) → (b : Ref sig .tc) → Buf (Elt Ideal) ((c : Thread nD τ).loc b))

/-- The block of points at point `t` holds rows `2048 t .. 2048 t + 2047` of the points' array: its entry `(j, d)` is the
    array's entry `(n, d)` for `n = 2048 t + j`. -/
theorem xblk_apply (c : Dev nD) (X : Cert.Spec.XArr) (hX : V c main_arg0 = X) (t : Fin cfg1.N)
    (j : Fin 2048) (d : Fin 256) (n : Fin 16384) (hn : n.val = 2048 * t.val + j.val) :
    xblk V c t (ix2 j d) = X (ix2 n d) := by
  obtain ⟨e0, e1, -⟩ := index_facts t
  show (V c main_arg0 : S16384x256.Idx → Elt Ideal .f32) (((cfg1.win 0).blk t).view.emb (ix2 j d)) = X (ix2 n d)
  rw [hX]
  congr 1
  funext a
  apply Fin.ext
  match a with
  | ⟨0, _⟩ => show win1_0.index t (0 : Fin 2) * 2048 + 1 * j.val = n.val; rw [e0, hn]; omega
  | ⟨1, _⟩ => show win1_0.index t (1 : Fin 2) * 256 + 1 * d.val = d.val; rw [e1]; omega

/-- The centroid block at every point is the whole table. -/
theorem mublk_apply (c : Dev nD) (MU : Cert.Spec.MuArr) (hMU : V c main_v0 = MU) (t : Fin cfg1.N)
    (r : Fin 64) (d : Fin 256) : mublk V c t (ix2 r d) = MU (ix2 r d) := by
  obtain ⟨-, -, e2, e3, -⟩ := index_facts t
  show (V c main_v0 : S64x256.Idx → Elt Ideal .f32) (((cfg1.win 1).blk t).view.emb (ix2 r d)) = MU (ix2 r d)
  rw [hMU]
  congr 1
  funext a
  apply Fin.ext
  match a with
  | ⟨0, _⟩ => show win1_1.index t (0 : Fin 2) * 64 + 1 * r.val = r.val; rw [e2]; omega
  | ⟨1, _⟩ => show win1_1.index t (1 : Fin 2) * 256 + 1 * d.val = d.val; rw [e3]; omega

/-- What point `t` writes back is block `t` of the cluster-major soft assignment: columns `2048 t .. 2048 t + 2047`. -/
theorem flushed_out (c : Dev nD) (X : Cert.Spec.XArr) (MU : Cert.Spec.MuArr) (hX : V c main_arg0 = X) (hMU : V c main_v0 = MU)
    (t : Fin cfg1.N) :
    (dat1 (F := Ideal) V c).flushed 2 t = ((cfg1.win 2).blk t).view.read (Elt Ideal) (Cert.Spec.GOfT X MU) := by
  obtain ⟨-, -, -, -, e4, e5⟩ := index_facts t
  show (cfg1.win 2).cut (grid1.coords t) ((dat1 V c).after 2 t) = _
  rw [after_out]
  funext y
  show assignOut (xblk V c t) (mublk V c t) ((cfg1.win 2).xinj (grid1.coords t) y)
    = Cert.Spec.GOfT X MU (((cfg1.win 2).blk t).view.emb y)
  refine assignOut_entry X MU _ _ t.val (fun j d n hn => xblk_apply V c X hX t j d n hn)
    (fun r d => mublk_apply V c MU hMU t r d) _ _ ?_ ?_
  · show win1_2.index t (0 : Fin 2) * 64 + 1 * (y 0).val = (y 0).val
    rw [e4]; omega
  · show win1_2.index t (1 : Fin 2) * 2048 + 1 * (y 1).val = 2048 * t.val + (y 1).val
    rw [e5]; omega

/-- Every entry of the output array lies in some point's block: column `n` in the block of point `n / 2048`. -/
theorem out_cover (i : S64x16384.Idx) :
    ∃ t : Fin cfg1.N, (cfg1.win 2).flush t = true ∧ i ∈ ((cfg1.win 2).blk t).view.set := by
  have hi0 : (i 0).val < 64 := (i 0).isLt
  have hi1 : (i 1).val < 16384 := (i 1).isLt
  have ht : (i 1).val / 2048 < cfg1.N := by show (i 1).val / 2048 < grid1.N; rw [N_1]; omega
  obtain ⟨-, -, -, -, e4, e5⟩ := index_facts ⟨(i 1).val / 2048, ht⟩
  refine ⟨⟨(i 1).val / 2048, ht⟩, flush1_2 _, ?_⟩
  show i ∈ ((View.whole main_v1).slice (win1_2.rect ⟨(i 1).val / 2048, ht⟩)).set
  rw [View.set_slice_whole, Rect.mem_set_unit]
  intro a
  match a with
  | ⟨0, _⟩ =>
    show win1_2.index ⟨(i 1).val / 2048, ht⟩ (0 : Fin 2) * 64 ≤ (i 0).val
      ∧ (i 0).val < win1_2.index ⟨(i 1).val / 2048, ht⟩ (0 : Fin 2) * 64 + 64
    rw [e4]; omega
  | ⟨1, _⟩ =>
    show win1_2.index ⟨(i 1).val / 2048, ht⟩ (1 : Fin 2) * 2048 ≤ (i 1).val
      ∧ (i 1).val < win1_2.index ⟨(i 1).val / 2048, ht⟩ (1 : Fin 2) * 2048 + 2048
    rw [e5]; show (i 1).val / 2048 * 2048 ≤ (i 1).val ∧ (i 1).val < (i 1).val / 2048 * 2048 + 2048; omega

/-- After the region, the output array holds, cluster-major, the soft assignment of every point against the table the region was entered with. -/
theorem out_array (V : (c : Dev nD) → (b : Ref sig .tc) → Buf (Elt Ideal) ((c : Thread nD τ).loc b)) (c : Dev nD)
    (X : Cert.Spec.XArr) (MU : Cert.Spec.MuArr) (hX : V c main_arg0 = X) (hMU : V c main_v0 = MU) :
    (dat1 (F := Ideal) V c).arrAt 2 cfg1.N = Cert.Spec.GOfT X MU :=
  (dat1 (F := Ideal) V c).arrAt_eq_of_cover 2 (Cert.Spec.GOfT X MU)
    (fun t _ => flushed_out V c X MU hX hMU t) out_cover

end Cert.KernelIdeal.Assign

end
-- ==== Proof.KernelValue.lean ====
/-
  The idealized kernel's result. The run leaves every unscoped buffer at the last boundary's contents; read at the result
  buffer, those are the transpose of what the assignment region wrote, which is the cluster-major soft assignment against
  the table the centroid region wrote, which is the table of centroids of the launch arguments. So the result is the
  specification `G` of the two arguments.
-/
import proofs.«175471_j7017976562073_1_alg».proof.Proof.Whole
import proofs.«175471_j7017976562073_1_alg».proof.Proof.MuArray
import proofs.«175471_j7017976562073_1_alg».proof.Proof.OutArray
import proofs.«175471_j7017976562073_1_alg».proof.Proof.SpecOf
import Idealize.ShloMosaic.Lib.StableHlo.Run
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The points and the weights as launched on core `c`. -/
abbrev Xof (c : Dev nD) : Cert.Spec.XArr := m ((c : Thread nD τ).loc main_arg0)
abbrev Mof (c : Dev nD) : Cert.Spec.MArr := m ((c : Thread nD τ).loc main_arg1)

/-- The second region still finds the points as launched: the first region only reads them. -/
theorem Vb_points (c : Dev nD) : Vb m c main_arg0 = Xof m c :=
  (W1_arr m c 1).trans (((Centroid.dat0 (Va m) c).arrAt_in 1 rfl _).trans (Centroid.A_eq (Va m) c 1))

/-- And it finds, in the first region's output array, the table of centroids of the launch arguments. -/
theorem Vb_centroids (c : Dev nD) : Vb m c main_v0 = Cert.Spec.muTable (Xof m c) (Mof m c) :=
  (W1_arr m c 2).trans (Centroid.mu_array (Va m) c (Xof m c) (Mof m c) rfl rfl)

/-- What the second region leaves in its output array: the cluster-major soft assignment against that table. -/
theorem W2_assign (c : Dev nD) :
    W2 m c (Proc.devRef .tc main_v1) = Cert.Spec.GOfT (Xof m c) (Cert.Spec.muTable (Xof m c) (Mof m c)) :=
  (W2_arr m c 2).trans (Assign.out_array (Vb m) c (Xof m c) (Cert.Spec.muTable (Xof m c) (Mof m c)) (Vb_points m c) (Vb_centroids m c))

/-- The result buffer at the end is the transpose of that array. -/
theorem W3_result (c : Dev nD) :
    W3 m c (Proc.devRef .tc main_v2)
      = transpose S16384x64 [1, 0] (W2 m c (Proc.devRef .tc main_v1)) transposes_S64x16384_S16384x64_1_0 := by
  show StableHlo.after hostOps2 (W2 m c) (Proc.devRef .tc main_v2) = _
  after_results

/-- THE VALUE: the result is the specification of the two launch arguments. -/
theorem result (c : Dev nD) : W3 m c (Proc.devRef .tc main_v2) = Cert.Spec.G (Xof m c) (Mof m c) := by
  rw [W3_result, W2_assign, Cert.Spec.G_eq_GOf]
  funext j
  obtain ⟨n, k, rfl⟩ : ∃ (n : Fin 16384) (k : Fin 64), j = ix2 n k := ⟨j 0, j 1, eq_ix2 j⟩
  exact transpose_ix2_apply _ _ n k

/-- The run with its result named: every weakly fair execution terminates, nothing faulting; the result buffer ends at the
    specification of the launch arguments, and the arguments end as launched. -/
theorem run_value : θ_run defs (onTc (τ := τ) (main (F := Ideal))) ⟨m, fun _ => 0, ρ⟩ (fun r => ∀ c : Dev nD,
      r.2.mem ((c.tc : Thread nD τ).loc main_v2) = Cert.Spec.G (Xof m c) (Mof m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v2 (by decide))).trans (result m c),
     (h c _ (mem_uc main_arg0 (by decide))).trans (W3_main_arg0 m c),
     (h c _ (mem_uc main_arg1 (by decide))).trans (W3_main_arg1 m c)⟩) (run m ρ)

end Cert.KernelIdeal.Whole

end
-- ==== Proof.RefIsG.lean ====
/-
  The reference program's last stage is the specification `Cert.Spec.G`, read one element at a time over the extended reals.
-/
import proofs.«175471_j7017976562073_1_alg».proof.Proof.Spec
import proofs.«175471_j7017976562073_1_alg».proof.Proof.Gen.ReferenceIdeal.Read
import Mathlib.Analysis.Real.Sqrt

noncomputable section

open scoped BigOperators

namespace Cert.RefSide

open Cert.ReferenceIdeal Cert.ReferenceIdeal.Read Idealize.ShloMosaic Idealize.ShloMosaic.ValueIdx

/-- On every extended real the square root of the square is the absolute value (`max x (-x)`): for a real `r` the
    square is the real `r * r ≥ 0` whose root is `|r|`; `⊥ * ⊥ = ⊤ * ⊤ = ⊤` and the root of `⊤` is `⊤`. -/
theorem sqrt_mul_self (x : EReal) : Ideal.sqrt (x * x) = max x (-x) := by
  induction x with
  | bot => rw [EReal.bot_mul_bot, Ideal.sqrt_top, EReal.neg_bot, max_eq_right bot_le]
  | top => rw [EReal.top_mul_top, Ideal.sqrt_top, EReal.neg_top, max_eq_left bot_le]
  | coe r =>
    rw [← EReal.coe_mul, Ideal.sqrt_coe, if_neg (not_lt.2 (mul_self_nonneg r)), Real.sqrt_mul_self_eq_abs, ← EReal.coe_neg]
    rcases le_total 0 r with h | h
    · rw [abs_of_nonneg h, max_eq_left (EReal.coe_le_coe_iff.2 (by linarith))]
    · rw [abs_of_nonpos h, max_eq_right (EReal.coe_le_coe_iff.2 (by linarith))]

/-- The points as the reference's first argument. -/
abbrev XC : Type := (⟨S16384x256, .f32⟩ : BufTy).Contents (Elt Ideal)
/-- The weights as the reference's second argument. -/
abbrev MC : Type := (⟨S16384x64, .f32⟩ : BufTy).Contents (Elt Ideal)

/-- The counts: the zero word plus the sum over the points is the total weight of the cluster. -/
theorem counts_eq (x1 : MC) (c : Fin 64) : val_main_v0 (F := Ideal) x1 (ix1 c) = Cert.Spec.cnt x1 c := by
  rw [val_main_v0_apply, val_main_cst_apply, Ideal.ofBits_def, Ideal.ofBits_zero_f32, zero_add]
  unfold Cert.Spec.cnt
  refine Finset.sum_congr rfl fun n _ => congrArg x1 (funext fun a => ?_)
  match a with | ⟨0, _⟩ => rfl | ⟨1, _⟩ => rfl

/-- The contraction of the transposed weights with the points is the weighted coordinate sum. -/
theorem acc_eq (x0 : XC) (x1 : MC) (c : Fin 64) (d : Fin 256) :
    val_main_v3 (F := Ideal) x0 x1 (ix2 c d) = Cert.Spec.acc x0 x1 c d := by
  rw [val_main_v3_apply]
  unfold Cert.Spec.acc
  refine Finset.sum_congr rfl fun n _ => ?_
  have e1 : idx_main_v2 (lidx_main_v3 (ix2 c d) n) = ix2 n c :=
    funext fun a => by match a with | ⟨0, _⟩ => rfl | ⟨1, _⟩ => rfl
  have e2 : ridx_main_v3 (ix2 c d) n = ix2 n d :=
    funext fun a => by match a with | ⟨0, _⟩ => rfl | ⟨1, _⟩ => rfl
  rw [val_main_v2_apply, e1, e2]

/-- The centroid: the weighted coordinate sum divided by the count (the count broadcast along the coordinates). -/
theorem mu_eq (x0 : XC) (x1 : MC) (c : Fin 64) (d : Fin 256) :
    val_main_v5 (F := Ideal) x0 x1 (ix2 c d) = Cert.Spec.mu x0 x1 c d := by
  have e : idx_main_v1 (idx_main_v4 (ix2 c d)) = ix1 c :=
    funext fun a => by match a with | ⟨0, _⟩ => rfl
  rw [val_main_v5_apply, acc_eq, val_main_v4_apply, val_main_v1_apply, e, counts_eq, Ideal.hostDivf_def]
  rfl

/-- One term of the distance: the root of the squared difference is the absolute difference. -/
theorem absdiff_eq (x0 : XC) (x1 : MC) (n : Fin 16384) (c : Fin 64) (d : Fin 256) :
    val_main_v12 (F := Ideal) x0 x1 (ix3 n c d)
      = max (x0 (ix2 n d) - Cert.Spec.mu x0 x1 c d) (-(x0 (ix2 n d) - Cert.Spec.mu x0 x1 c d)) := by
  have e1 : idx_main_v6 (idx_main_v8 (ix3 n c d)) = ix2 n d :=
    funext fun a => by match a with | ⟨0, _⟩ => rfl | ⟨1, _⟩ => rfl
  have e2 : idx_main_v7 (idx_main_v9 (ix3 n c d)) = ix2 c d :=
    funext fun a => by match a with | ⟨0, _⟩ => rfl | ⟨1, _⟩ => rfl
  rw [val_main_v12_apply, val_main_v11_apply, Ideal.hostUnary_sqrt_def, Ideal.mulf_def, sqrt_mul_self,
    val_main_v10_apply, Ideal.subf_def, val_main_v8_apply, val_main_v6_apply, e1, val_main_v9_apply, val_main_v7_apply, e2,
    mu_eq]

/-- The distance: the zero word plus the sum over the coordinates of the absolute differences. -/
theorem dist_eq (x0 : XC) (x1 : MC) (n : Fin 16384) (c : Fin 64) :
    val_main_v13 (F := Ideal) x0 x1 (ix2 n c) = Cert.Spec.dist x0 x1 n c := by
  rw [val_main_v13_apply, val_main_cst_0_apply, Ideal.ofBits_def, Ideal.ofBits_zero_f32, zero_add]
  unfold Cert.Spec.dist
  refine Finset.sum_congr rfl fun d _ => ?_
  have e : idx_main_v13 (ix2 n c) d = ix3 n c d :=
    funext fun a => by match a with | ⟨0, _⟩ => rfl | ⟨1, _⟩ => rfl | ⟨2, _⟩ => rfl
  rw [e, absdiff_eq]

/-- The kernel of the distance: one over one plus the distance, the one being the broadcast word. -/
theorem q_eq (x0 : XC) (x1 : MC) (n : Fin 16384) (c : Fin 64) :
    val_main_v17 (F := Ideal) x0 x1 (ix2 n c) = Cert.Spec.q x0 x1 n c := by
  rw [val_main_v17_apply, val_main_v16_apply, val_main_cst_2_apply, val_main_v15_apply, val_main_v14_apply,
    val_main_cst_1_apply, dist_eq, Ideal.hostDivf_def, Ideal.addf_def, Ideal.ofBits_def]
  rfl

/-- The normaliser: the zero word plus the sum over the clusters of the kernel. -/
theorem norm_eq (x0 : XC) (x1 : MC) (n : Fin 16384) (c : Fin 64) :
    val_main_v20 (F := Ideal) x0 x1 (ix2 n c) = ∑ k : Fin 64, Cert.Spec.q x0 x1 n k := by
  have e : idx_main_v19 (idx_main_v20 (ix2 n c)) = ix1 n :=
    funext fun a => by match a with | ⟨0, _⟩ => rfl
  rw [val_main_v20_apply, val_main_v19_apply, e, val_main_v18_apply, val_main_cst_3_apply, Ideal.ofBits_def,
    Ideal.ofBits_zero_f32, zero_add]
  refine Finset.sum_congr rfl fun k _ => ?_
  have e' : idx_main_v18 (ix1 n) k = ix2 n k :=
    funext fun a => by match a with | ⟨0, _⟩ => rfl | ⟨1, _⟩ => rfl
  rw [e', q_eq]

/-- The reference's last stage is the specification. -/
theorem ref_eq (x0 : (⟨Cert.ReferenceIdeal.S16384x256, .f32⟩ : BufTy).Contents (Elt Ideal)) (x1 : (⟨Cert.ReferenceIdeal.S16384x64, .f32⟩ : BufTy).Contents (Elt Ideal)) :
    Cert.ReferenceIdeal.Read.val_main_v21 (F := Ideal) x0 x1 = Cert.Spec.G x0 x1 := by
  funext j
  obtain ⟨n, c, rfl⟩ : ∃ (n : Fin 16384) (c : Fin 64), j = ix2 n c := ⟨j 0, j 1, eq_ix2 j⟩
  rw [val_main_v21_apply, q_eq, norm_eq, Ideal.hostDivf_def]
  rfl

end Cert.RefSide

end
-- ==== Proof.lean ====
/-
  The certificate of the two-stage soft cluster assignment: a Pallas kernel of two pallas_calls against its jnp reference.

  Both programs compute, from points `X : [16384, 256]` and weights `M : [16384, 64]`, the function `G` of Proof/Spec.lean:
  the centroids `mu[c, d] = (sum over n of M[n, c] * X[n, d]) / (sum over n of M[n, c])`, the L1 distances
  `dist[n, c] = sum over d of |X[n, d] - mu[c, d]|`, the Student-t kernel `q = 1 / (1 + dist)` and its normalisation over the
  64 clusters. They differ in three ways, none of which changes the value on the extended reals:
  * the kernel accumulates the two sums over 8 blocks of 2048 points (a regrouping of a sum; addition on the extended reals
    is commutative and associative, so no finiteness is used);
  * the reference writes the absolute value as `sqrt (x * x)`, which is `max x (-x)` at every extended real, the
    infinities included;
  * the kernel computes the assignment cluster-major, 2048 points at a time, and transposes at the end.
  The precondition is never opened.

  The frames: the kernel's @main is two kernel regions and a transpose. Each region's body is run once per control case
  (the centroid kernel keeps its accumulators in scratch between grid points: an invariant names their contents after each
  point), each region is a segment entered from the contents the segment before left, and the run ends with every
  unscoped buffer of the core at known contents (Proof/Whole.lean). The arguments are among them, unchanged; at the ideal
  instance the result buffer is `G` of the arguments (Proof/KernelValue.lean). The word-level program is the same text under
  its own namespace. The reference's run and its stages at an index are generated; that its last stage is `G` is
  Proof/RefIsG.lean.
-/
import proofs.«175471_j7017976562073_1_alg».proof.Defs
import proofs.«175471_j7017976562073_1_alg».proof.Proof.Gen.Kernel
import proofs.«175471_j7017976562073_1_alg».proof.Proof.Gen.Kernel.Skeleton
import proofs.«175471_j7017976562073_1_alg».proof.Proof.Gen.Kernel.Launch
import proofs.«175471_j7017976562073_1_alg».proof.Proof.Gen.Kernel.Regions
import proofs.«175471_j7017976562073_1_alg».proof.Proof.Gen.Kernel.Points
import proofs.«175471_j7017976562073_1_alg».proof.Proof.Gen.KernelIdeal
import proofs.«175471_j7017976562073_1_alg».proof.Proof.Gen.KernelIdeal.Skeleton
import proofs.«175471_j7017976562073_1_alg».proof.Proof.Gen.KernelIdeal.Launch
import proofs.«175471_j7017976562073_1_alg».proof.Proof.Gen.KernelIdeal.Regions
import proofs.«175471_j7017976562073_1_alg».proof.Proof.Gen.KernelIdeal.Points
import proofs.«175471_j7017976562073_1_alg».proof.Proof.Gen.ReferenceIdeal
import proofs.«175471_j7017976562073_1_alg».proof.Proof.Gen.ReferenceIdeal.Run
import proofs.«175471_j7017976562073_1_alg».proof.Proof.Gen.ReferenceIdeal.Read
import proofs.«175471_j7017976562073_1_alg».proof.Proof.Gen.Pre_finite_inputs
import proofs.«175471_j7017976562073_1_alg».proof.Proof.KWhole
import proofs.«175471_j7017976562073_1_alg».proof.Proof.KernelValue
import proofs.«175471_j7017976562073_1_alg».proof.Proof.RefIsG
import Idealize.ShloMosaic.Adequacy
import Idealize.ShloMosaic.Init

noncomputable section

namespace Cert.Proof

open Idealize.ShloMosaic Idealize.ShloMosaic.TcCoe Idealize.SL.Sem

/-- The word-level kernel runs to the end, nothing faulting, its arguments unchanged. -/
theorem frame_k : Cert.frame_Kernel (hKernel := Cert.Kernel.Gen.facts) (hPre_finite_inputs := Cert.Pre_finite_inputs.Gen.facts) :=
  fun m ρ _ => Cert.Kernel.Whole.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Whole.frame m ρ

/-- So does the reference: its generated run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end with `G` of the arguments in their result buffers:
    the kernel by its run with the result named, the reference by its generated run, whose last stage is `G`. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G (Cert.KernelIdeal.Whole.Xof m c) (Cert.KernelIdeal.Whole.Mof m c), Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.RefSide.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
